-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x8192x128 : Shape := ⟨4, ![4, 16, 8192, 128]⟩
abbrev S4x16x128x128 : Shape := ⟨4, ![4, 16, 128, 128]⟩
abbrev S4x16x128 : Shape := ⟨3, ![4, 16, 128]⟩
abbrev S_ : Shape := ⟨0, ![]⟩

class Facts : Prop where
  bcast_S_S4x16x8192x128 : S_.BroadcastsInDim S4x16x8192x128 (![] : Fin 0 → Fin S4x16x8192x128.rank)
  reducesTo_S4x16x8192x128_S_d0_1_2_3 : S4x16x8192x128.ReducesTo [0, 1, 2, 3] S_
  h_S_ : 0 < S_.numel
  bcast_S_S4x16x128x128 : S_.BroadcastsInDim S4x16x128x128 (![] : Fin 0 → Fin S4x16x128x128.rank)
  reducesTo_S4x16x128x128_S_d0_1_2_3 : S4x16x128x128.ReducesTo [0, 1, 2, 3] S_
  bcast_S_S4x16x128 : S_.BroadcastsInDim S4x16x128 (![] : Fin 0 → Fin S4x16x128.rank)
  reducesTo_S4x16x128_S_d0_1_2 : S4x16x128.ReducesTo [0, 1, 2] S_

variable [Facts]

def fn_part1 {F : FTy → Type} [FloatOps F] (main_v13 : IVec S_ 1) (main_v16 : IVec S4x16x128 1) : IVec S_ 1 :=
  let main_c_5 : IVec S_ 1 := constantI S_ 1 1#1
  let main_v17 : IVec S_ 1 := (fun x v => Host.reduce IntOp.andi x v reducesTo_S4x16x128_S_d0_1_2 h_S_) main_v16 main_c_5
  let main_v18 : IVec S_ 1 := andi main_v13 main_v17
  main_v18

def fn {F : FTy → Type} [FloatOps F] (main_arg0 : FVec F S4x16x8192x128 .f32) (main_arg1 : FVec F S4x16x8192x128 .f32) (main_arg2 : FVec F S4x16x128x128 .f32) (main_arg3 : FVec F S4x16x128 .f32) : IVec S_ 1 :=
  let main_v0 : FVec F S4x16x8192x128 .f32 := Host.absf main_arg0
  let main_cst : FVec F S_ .f32 := constant S_ .f32 0x7F800000#32
  let main_v1 : FVec F S4x16x8192x128 .f32 := broadcastInDim S4x16x8192x128 ![] bcast_S_S4x16x8192x128 main_cst
  let main_v2 : IVec S4x16x8192x128 1 := cmpf .olt main_v0 main_v1
  let main_c : IVec S_ 1 := constantI S_ 1 1#1
  let main_v3 : IVec S_ 1 := (fun x v => Host.reduce IntOp.andi x v reducesTo_S4x16x8192x128_S_d0_1_2_3 h_S_) main_v2 main_c
  let main_v4 : FVec F S4x16x8192x128 .f32 := Host.absf main_arg1
  let main_cst_0 : FVec F S_ .f32 := constant S_ .f32 0x7F800000#32
  let main_v5 : FVec F S4x16x8192x128 .f32 := broadcastInDim S4x16x8192x128 ![] bcast_S_S4x16x8192x128 main_cst_0
  let main_v6 : IVec S4x16x8192x128 1 := cmpf .olt main_v4 main_v5
  let main_c_1 : IVec S_ 1 := constantI S_ 1 1#1
  let main_v7 : IVec S_ 1 := (fun x v => Host.reduce IntOp.andi x v reducesTo_S4x16x8192x128_S_d0_1_2_3 h_S_) main_v6 main_c_1
  let main_v8 : IVec S_ 1 := andi main_v3 main_v7
  let main_v9 : FVec F S4x16x128x128 .f32 := Host.absf main_arg2
  let main_cst_2 : FVec F S_ .f32 := constant S_ .f32 0x7F800000#32
  let main_v10 : FVec F S4x16x128x128 .f32 := broadcastInDim S4x16x128x128 ![] bcast_S_S4x16x128x128 main_cst_2
  let main_v11 : IVec S4x16x128x128 1 := cmpf .olt main_v9 main_v10
  let main_c_3 : IVec S_ 1 := constantI S_ 1 1#1
  let main_v12 : IVec S_ 1 := (fun x v => Host.reduce IntOp.andi x v reducesTo_S4x16x128x128_S_d0_1_2_3 h_S_) main_v11 main_c_3
  let main_v13 : IVec S_ 1 := andi main_v8 main_v12
  let main_v14 : FVec F S4x16x128 .f32 := Host.absf main_arg3
  let main_cst_4 : FVec F S_ .f32 := constant S_ .f32 0x7F800000#32
  let main_v15 : FVec F S4x16x128 .f32 := broadcastInDim S4x16x128 ![] bcast_S_S4x16x128 main_cst_4
  let main_v16 : IVec S4x16x128 1 := cmpf .olt main_v14 main_v15
  fn_part1 (F := F) main_v13 main_v16
-- ==== Kernel.lean ====
abbrev S4x16x8192x128 : Shape := ⟨4, ![4, 16, 8192, 128]⟩
abbrev S4x16x128x128 : Shape := ⟨4, ![4, 16, 128, 128]⟩
abbrev S4x16x128 : Shape := ⟨3, ![4, 16, 128]⟩
abbrev S64x8192x128 : Shape := ⟨3, ![64, 8192, 128]⟩
abbrev S64x128x128 : Shape := ⟨3, ![64, 128, 128]⟩
abbrev S64x1x128 : Shape := ⟨3, ![64, 1, 128]⟩
abbrev S1x4096x128 : Shape := ⟨3, ![1, 4096, 128]⟩
abbrev S1x128x128 : Shape := ⟨3, ![1, 128, 128]⟩
abbrev S1x1x128 : Shape := ⟨3, ![1, 1, 128]⟩
abbrev S128x128 : Shape := ⟨2, ![128, 128]⟩
abbrev S1x128 : Shape := ⟨2, ![1, 128]⟩
abbrev S4096x128 : Shape := ⟨2, ![4096, 128]⟩
abbrev S128 : Shape := ⟨1, ![128]⟩

abbrev nBuf : Space → Nat
  | .hbm => 12
  | .vmem => 14
  | .smem => 0
  | _ => 0

abbrev bufTy : (tb : Table) → Fin (tcTables nBuf tb) → BufTy
  | .hbm, ⟨0, _⟩ => ⟨S4x16x8192x128, .f32⟩
  | .hbm, ⟨1, _⟩ => ⟨S4x16x8192x128, .f32⟩
  | .hbm, ⟨2, _⟩ => ⟨S4x16x128x128, .f32⟩
  | .hbm, ⟨3, _⟩ => ⟨S4x16x128, .f32⟩
  | .hbm, ⟨4, _⟩ => ⟨S64x8192x128, .f32⟩
  | .hbm, ⟨5, _⟩ => ⟨S64x8192x128, .f32⟩
  | .hbm, ⟨6, _⟩ => ⟨S64x128x128, .f32⟩
  | .hbm, ⟨7, _⟩ => ⟨S64x1x128, .f32⟩
  | .hbm, ⟨8, _⟩ => ⟨S64x128x128, .f32⟩
  | .hbm, ⟨9, _⟩ => ⟨S64x1x128, .f32⟩
  | .hbm, ⟨10, _⟩ => ⟨S4x16x128x128, .f32⟩
  | .hbm, ⟨11, _⟩ => ⟨S4x16x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S1x128x128, .f32⟩
  | .local _ .vmem, ⟨9, _⟩ => ⟨S1x128x128, .f32⟩
  | .local _ .vmem, ⟨10, _⟩ => ⟨S1x1x128, .f32⟩
  | .local _ .vmem, ⟨11, _⟩ => ⟨S1x1x128, .f32⟩
  | .local _ .vmem, ⟨12, _⟩ => ⟨S128x128, .f32⟩
  | .local _ .vmem, ⟨13, _⟩ => ⟨S1x128, .f32⟩
  | _, _ => ⟨S4x16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v33 : BitVec 1 := Scalar.cmpi .eq arg1 c1_i32
  let v34 : BitVec 32 := Scalar.extui v33
  let c0_i32_21 : BitVec 32 := 0#32
  let v35 : BitVec 1 := Scalar.cmpi .ne v34 c0_i32_21
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x16x8192x128_S64x8192x128 : S4x16x8192x128.ShapeCasts S64x8192x128
  shapeCasts_S4x16x128x128_S64x128x128 : S4x16x128x128.ShapeCasts S64x128x128
  shapeCasts_S4x16x128_S64x1x128 : S4x16x128.ShapeCasts S64x1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  reduces_S4096x128_S128 : S4096x128.Reduces [0] S128
  shapeCasts_S128_S1x128 : S128.ShapeCasts S1x128
  shapeCasts_S128x128_S1x128x128 : S128x128.ShapeCasts S1x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S64x128x128_S4x16x128x128 : S64x128x128.ShapeCasts S4x16x128x128
  shapeCasts_S64x1x128_S4x16x128 : S64x1x128.ShapeCasts S4x16x128
  dot_S4096x128_S128x128_S4096x128_1_0_0_1_n_n_wf : DotDims.WF S4096x128 S128x128 S4096x128 [1] [0] [0] [1] [] []
  dot_S4096x128_S4096x128_S128x128_0_0_1_1_n_n_wf : DotDims.WF S4096x128 S4096x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x8192x128.size a
  hwx0_0 : ∀ i : grid0.Coords, EltTy.bits .f32 = 32 ∨ (Rect.block (s := S64x8192x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S64x8192x128.size a
  hwx0_1 : ∀ i : grid0.Coords, EltTy.bits .f32 = 32 ∨ (Rect.block (s := S64x8192x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S64x128x128.size a
  hwx0_2 : ∀ i : grid0.Coords, EltTy.bits .f32 = 32 ∨ (Rect.block (s := S64x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S64x1x128.size a
  hwx0_3 : ∀ i : grid0.Coords, EltTy.bits .f32 = 32 ∨ (Rect.block (s := S64x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S64x128x128.size a
  hwx0_4 : ∀ i : grid0.Coords, EltTy.bits .f32 = 32 ∨ (Rect.block (s := S64x128x128) S1x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S64x1x128.size a
  hwx0_5 : ∀ i : grid0.Coords, EltTy.bits .f32 = 32 ∨ (Rect.block (s := S64x1x128) S1x1x128.size (cc0_transform_5 i) (hinb0_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x16x8192x128 : Shape := ⟨4, ![4, 16, 8192, 128]⟩
abbrev S4x16x128x128 : Shape := ⟨4, ![4, 16, 128, 128]⟩
abbrev S4x16x128 : Shape := ⟨3, ![4, 16, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x16x8192x128, .f32⟩
  | .hbm, ⟨1, _⟩ => ⟨S4x16x8192x128, .f32⟩
  | .hbm, ⟨2, _⟩ => ⟨S4x16x128x128, .f32⟩
  | .hbm, ⟨3, _⟩ => ⟨S4x16x128, .f32⟩
  | .hbm, ⟨4, _⟩ => ⟨S_, .f32⟩
  | .hbm, ⟨5, _⟩ => ⟨S4x16x8192x128, .f32⟩
  | .hbm, ⟨6, _⟩ => ⟨S4x16x8192x128, .i1⟩
  | .hbm, ⟨7, _⟩ => ⟨S_, .f32⟩
  | .hbm, ⟨8, _⟩ => ⟨S4x16x8192x128, .f32⟩
  | .hbm, ⟨9, _⟩ => ⟨S4x16x8192x128, .i1⟩
  | .hbm, ⟨10, _⟩ => ⟨S_, .f32⟩
  | .hbm, ⟨11, _⟩ => ⟨S_, .f32⟩
  | .hbm, ⟨12, _⟩ => ⟨S4x16x8192x128, .f32⟩
  | .hbm, ⟨13, _⟩ => ⟨S4x16x8192x128, .f32⟩
  | .hbm, ⟨14, _⟩ => ⟨S4x16x8192x128, .f32⟩
  | .hbm, ⟨15, _⟩ => ⟨S_, .f32⟩
  | .hbm, ⟨16, _⟩ => ⟨S4x16x8192x128, .f32⟩
  | .hbm, ⟨17, _⟩ => ⟨S4x16x8192x128, .f32⟩
  | .hbm, ⟨18, _⟩ => ⟨S4x16x8192x128, .f32⟩
  | .hbm, ⟨19, _⟩ => ⟨S_, .f32⟩
  | .hbm, ⟨20, _⟩ => ⟨S4x16x8192x128, .f32⟩
  | .hbm, ⟨21, _⟩ => ⟨S4x16x8192x128, .f32⟩
  | .hbm, ⟨22, _⟩ => ⟨S4x16x8192x128, .f32⟩
  | .hbm, ⟨23, _⟩ => ⟨S4x16x8192x128, .f32⟩
  | .hbm, ⟨24, _⟩ => ⟨S4x16x128x128, .f32⟩
  | .hbm, ⟨25, _⟩ => ⟨S4x16x128x128, .f32⟩
  | .hbm, ⟨26, _⟩ => ⟨S_, .f32⟩
  | .hbm, ⟨27, _⟩ => ⟨S4x16x128, .f32⟩
  | .hbm, ⟨28, _⟩ => ⟨S4x16x128, .f32⟩
  | _, _ => ⟨S4x16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_v3 : Ref sig .tc := ⟨.hbm, 9, rfl⟩
abbrev main_call0_cst_1 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v4 : Ref sig .tc := ⟨.hbm, 13, rfl⟩
abbrev main_call0_v5 : Ref sig .tc := ⟨.hbm, 14, rfl⟩
abbrev main_call0_cst_2 : Ref sig .tc := ⟨.hbm, 15, rfl⟩
abbrev main_call0_v6 : Ref sig .tc := ⟨.hbm, 16, rfl⟩
abbrev main_call0_v7 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]

class Facts₀ : Prop where
  bcast_S_S4x16x8192x128 : S_.BroadcastsInDim S4x16x8192x128 (![] : Fin 0 → Fin S4x16x8192x128.rank)
  reducesTo_S4x16x8192x128_S4x16x128_d2 : S4x16x8192x128.ReducesTo [2] S4x16x128
  h_S_ : 0 < S_.numel
  dot_S4x16x8192x128_S4x16x128x128_S4x16x8192x128_3_2_2_3_01_01_wf : DotDims.WF S4x16x8192x128 S4x16x128x128 S4x16x8192x128 [3] [2] [2] [3] [0, 1] [0, 1]
  dot_S4x16x8192x128_S4x16x8192x128_S4x16x128x128_2_2_3_3_01_01_wf : DotDims.WF S4x16x8192x128 S4x16x8192x128 S4x16x128x128 [2] [2] [3] [3] [0, 1] [0, 1]

variable [Facts₀]

def dot_S4x16x8192x128_S4x16x128x128_S4x16x8192x128_3_2_2_3_01_01 : DotDims S4x16x8192x128 S4x16x128x128 S4x16x8192x128 where
  lhsContracting := [3]
  rhsContracting := [2]
  lhsNonContracting := [2]
  rhsNonContracting := [3]
  lhsBatch := [0, 1]
  rhsBatch := [0, 1]
  wf := dot_S4x16x8192x128_S4x16x128x128_S4x16x8192x128_3_2_2_3_01_01_wf
def dot_S4x16x8192x128_S4x16x8192x128_S4x16x128x128_2_2_3_3_01_01 : DotDims S4x16x8192x128 S4x16x8192x128 S4x16x128x128 where
  lhsContracting := [2]
  rhsContracting := [2]
  lhsNonContracting := [3]
  rhsNonContracting := [3]
  lhsBatch := [0, 1]
  rhsBatch := [0, 1]
  wf := dot_S4x16x8192x128_S4x16x8192x128_S4x16x128x128_2_2_3_3_01_01_wf

class Facts : Prop extends Facts₀ where

variable [Facts]
-- ==== Proof.KPieces.lean ====
/-
  What one run of the kernel body leaves behind, as values.

  At the first position tile of a (batch, head) the body resets both accumulators to zero and then adds the tile's
  contribution; at the second tile it adds the tile's contribution to what the first left, and then writes
  M + accumulator and z + accumulator into the two output blocks. Each buffer is stored whole, so what it holds
  afterwards is the last stored value, with every load of a whole buffer read as that buffer's contents.
-/
import proofs.«168873_j23244363006471_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.HandValue
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile, the matrix accumulator: the zero reset, then the tile's ΔM added to it. -/
theorem accM_first (c : Dev nD) (i : grid0.Coords) (a2 : Memref sig .tc .vmem S1x4096x128 .f32) (h2 : a2.IsWhole) (a3 : Memref sig .tc .vmem S1x4096x128 .f32) (h3 : a3.IsWhole) (a4 : Memref sig .tc .vmem S1x128x128 .f32) (h4 : a4.IsWhole) (a5 : Memref sig .tc .vmem S1x1x128 .f32) (h5 : a5.IsWhole) (a6 : Memref sig .tc .vmem S1x128x128 .f32) (h6 : a6.IsWhole) (a7 : Memref sig .tc .vmem S1x1x128 .f32) (h7 : a7.IsWhole) (a8 : Memref sig .tc .vmem S128x128 .f32) (h8 : a8.IsWhole) (a9 : Memref sig .tc .vmem S1x128 .f32) (h9 : a9.IsWhole) (hc0 : cond0_0 i) (hc1 : ¬cond0_1 i) (x0 : Vec F S1x4096x128 .f32) (x1 : Vec F S1x4096x128 .f32) (x2 : Vec F S1x128x128 .f32) (x3 : Vec F S1x1x128 .f32) :
    sout0_A_0 c i a2 h2 a3 h3 a4 h4 a5 h5 a6 h6 a7 h7 a8 h8 a9 h9 hc0 hc1 x0 x1 x2 x3 = k0_pay7 x0 x2 x1 (k0_pay4 (F := F)) := by
  unfold sout0_A_0
  rw [View.read_writes_eq_canon _ _ _ (scover0_A_0 c i a2 h2 a3 h3 a4 h4 a5 h5 a6 h6 a7 h7 a8 h8 a9 h9 hc0 hc1 x0 x1 x2 x3)]
  unfold kernelRun0_A
  dsimp only
  sl_unfold_words
  rw [View.canon_cons_unit_zero (S := S128x128) hz2]
  simp only [View.readAt_eq_ld, h2.read_unread, h3.read_unread, h4.read_unread, h5.read_unread, h8.read_unread, h9.read_unread,
    View.ld_unit_zero (S := S1x4096x128) hz3, View.ld_unit_zero (S := S1x128x128) hz3, View.ld_unit_zero (S := S1x1x128) hz3,
    View.ld_unit_zero (S := S128x128) hz2, View.ld_unit_zero (S := S1x128) hz2,
    View.readCov_unit_zero (S := S128x128) _ hz2, View.readCov_unit_zero (S := S1x128) _ hz2]

/-- First tile, the vector accumulator: the zero reset, then the tile's feature sum added to it. -/
theorem accZ_first (c : Dev nD) (i : grid0.Coords) (a2 : Memref sig .tc .vmem S1x4096x128 .f32) (h2 : a2.IsWhole) (a3 : Memref sig .tc .vmem S1x4096x128 .f32) (h3 : a3.IsWhole) (a4 : Memref sig .tc .vmem S1x128x128 .f32) (h4 : a4.IsWhole) (a5 : Memref sig .tc .vmem S1x1x128 .f32) (h5 : a5.IsWhole) (a6 : Memref sig .tc .vmem S1x128x128 .f32) (h6 : a6.IsWhole) (a7 : Memref sig .tc .vmem S1x1x128 .f32) (h7 : a7.IsWhole) (a8 : Memref sig .tc .vmem S128x128 .f32) (h8 : a8.IsWhole) (a9 : Memref sig .tc .vmem S1x128 .f32) (h9 : a9.IsWhole) (hc0 : cond0_0 i) (hc1 : ¬cond0_1 i) (x0 : Vec F S1x4096x128 .f32) (x1 : Vec F S1x4096x128 .f32) (x2 : Vec F S1x128x128 .f32) (x3 : Vec F S1x1x128 .f32) :
    sout0_A_1 c i a2 h2 a3 h3 a4 h4 a5 h5 a6 h6 a7 h7 a8 h8 a9 h9 hc0 hc1 x0 x1 x2 x3 = k0_pay1 (k0_pay8 x0 (k0_pay5 (F := F))) := by
  unfold sout0_A_1
  rw [View.read_writes_eq_canon _ _ _ (scover0_A_1 c i a2 h2 a3 h3 a4 h4 a5 h5 a6 h6 a7 h7 a8 h8 a9 h9 hc0 hc1 x0 x1 x2 x3)]
  unfold kernelRun0_A
  dsimp only
  sl_unfold_words
  rw [View.canon_cons_unit_zero (S := S1x128) hz2]
  simp only [View.readAt_eq_ld, h2.read_unread, h3.read_unread, h4.read_unread, h5.read_unread, h8.read_unread, h9.read_unread,
    View.ld_unit_zero (S := S1x4096x128) hz3, View.ld_unit_zero (S := S1x128x128) hz3, View.ld_unit_zero (S := S1x1x128) hz3,
    View.ld_unit_zero (S := S128x128) hz2, View.ld_unit_zero (S := S1x128) hz2,
    View.readCov_unit_zero (S := S128x128) _ hz2, View.readCov_unit_zero (S := S1x128) _ hz2]

/-- Second tile, the matrix accumulator: the tile's ΔM added to what the first tile left. -/
theorem accM_second (c : Dev nD) (i : grid0.Coords) (a2 : Memref sig .tc .vmem S1x4096x128 .f32) (h2 : a2.IsWhole) (a3 : Memref sig .tc .vmem S1x4096x128 .f32) (h3 : a3.IsWhole) (a4 : Memref sig .tc .vmem S1x128x128 .f32) (h4 : a4.IsWhole) (a5 : Memref sig .tc .vmem S1x1x128 .f32) (h5 : a5.IsWhole) (a6 : Memref sig .tc .vmem S1x128x128 .f32) (h6 : a6.IsWhole) (a7 : Memref sig .tc .vmem S1x1x128 .f32) (h7 : a7.IsWhole) (a8 : Memref sig .tc .vmem S128x128 .f32) (h8 : a8.IsWhole) (a9 : Memref sig .tc .vmem S1x128 .f32) (h9 : a9.IsWhole) (hc0 : ¬cond0_0 i) (hc1 : cond0_1 i) (x0 : Vec F S1x4096x128 .f32) (x1 : Vec F S1x4096x128 .f32) (x2 : Vec F S1x128x128 .f32) (x3 : Vec F S1x1x128 .f32) (xs0 : Vec F S128x128 .f32) (xs1 : Vec F S1x128 .f32) :
    sout0_B_0 c i a2 h2 a3 h3 a4 h4 a5 h5 a6 h6 a7 h7 a8 h8 a9 h9 hc0 hc1 x0 x1 x2 x3 xs0 xs1 = k0_pay7 x0 x2 x1 xs0 := by
  unfold sout0_B_0
  rw [View.read_writes_eq_canon _ _ _ (scover0_B_0 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h8.read_unread, h9.read_unread,
    View.ld_unit_zero (S := S1x4096x128) hz3, View.ld_unit_zero (S := S1x128x128) hz3, View.ld_unit_zero (S := S1x1x128) hz3,
    View.ld_unit_zero (S := S128x128) hz2, View.ld_unit_zero (S := S1x128) hz2,
    View.readCov_unit_zero (S := S128x128) _ hz2, View.readCov_unit_zero (S := S1x128) _ hz2]

/-- Second tile, the vector accumulator: the tile's feature sum added to what the first tile left. -/
theorem accZ_second (c : Dev nD) (i : grid0.Coords) (a2 : Memref sig .tc .vmem S1x4096x128 .f32) (h2 : a2.IsWhole) (a3 : Memref sig .tc .vmem S1x4096x128 .f32) (h3 : a3.IsWhole) (a4 : Memref sig .tc .vmem S1x128x128 .f32) (h4 : a4.IsWhole) (a5 : Memref sig .tc .vmem S1x1x128 .f32) (h5 : a5.IsWhole) (a6 : Memref sig .tc .vmem S1x128x128 .f32) (h6 : a6.IsWhole) (a7 : Memref sig .tc .vmem S1x1x128 .f32) (h7 : a7.IsWhole) (a8 : Memref sig .tc .vmem S128x128 .f32) (h8 : a8.IsWhole) (a9 : Memref sig .tc .vmem S1x128 .f32) (h9 : a9.IsWhole) (hc0 : ¬cond0_0 i) (hc1 : cond0_1 i) (x0 : Vec F S1x4096x128 .f32) (x1 : Vec F S1x4096x128 .f32) (x2 : Vec F S1x128x128 .f32) (x3 : Vec F S1x1x128 .f32) (xs0 : Vec F S128x128 .f32) (xs1 : Vec F S1x128 .f32) :
    sout0_B_1 c i a2 h2 a3 h3 a4 h4 a5 h5 a6 h6 a7 h7 a8 h8 a9 h9 hc0 hc1 x0 x1 x2 x3 xs0 xs1 = k0_pay1 (k0_pay8 x0 xs1) := by
  unfold sout0_B_1
  rw [View.read_writes_eq_canon _ _ _ (scover0_B_1 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h8.read_unread, h9.read_unread,
    View.ld_unit_zero (S := S1x4096x128) hz3, View.ld_unit_zero (S := S1x128x128) hz3, View.ld_unit_zero (S := S1x1x128) hz3,
    View.ld_unit_zero (S := S128x128) hz2, View.ld_unit_zero (S := S1x128) hz2,
    View.readCov_unit_zero (S := S128x128) _ hz2, View.readCov_unit_zero (S := S1x128) _ hz2]

/-- Second tile, the memory output block: M plus the finished matrix accumulator. -/
theorem outM_second (c : Dev nD) (i : grid0.Coords) (a2 : Memref sig .tc .vmem S1x4096x128 .f32) (h2 : a2.IsWhole) (a3 : Memref sig .tc .vmem S1x4096x128 .f32) (h3 : a3.IsWhole) (a4 : Memref sig .tc .vmem S1x128x128 .f32) (h4 : a4.IsWhole) (a5 : Memref sig .tc .vmem S1x1x128 .f32) (h5 : a5.IsWhole) (a6 : Memref sig .tc .vmem S1x128x128 .f32) (h6 : a6.IsWhole) (a7 : Memref sig .tc .vmem S1x1x128 .f32) (h7 : a7.IsWhole) (a8 : Memref sig .tc .vmem S128x128 .f32) (h8 : a8.IsWhole) (a9 : Memref sig .tc .vmem S1x128 .f32) (h9 : a9.IsWhole) (hc0 : ¬cond0_0 i) (hc1 : cond0_1 i) (x0 : Vec F S1x4096x128 .f32) (x1 : Vec F S1x4096x128 .f32) (x2 : Vec F S1x128x128 .f32) (x3 : Vec F S1x1x128 .f32) (xs0 : Vec F S128x128 .f32) (xs1 : Vec F S1x128 .f32) :
    out0_B_4 c i a2 h2 a3 h3 a4 h4 a5 h5 a6 h6 a7 h7 a8 h8 a9 h9 hc0 hc1 x0 x1 x2 x3 xs0 xs1 = k0_pay2 x2 (k0_pay7 x0 x2 x1 xs0) := by
  unfold out0_B_4
  rw [View.read_writes_eq_canon _ _ _ (cover0_B_4 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz3]
  simp only [View.readAt_eq_ld, h2.read_unread, h3.read_unread, h4.read_unread, h5.read_unread, h8.read_unread, h9.read_unread,
    View.ld_unit_zero (S := S1x4096x128) hz3, View.ld_unit_zero (S := S1x128x128) hz3, View.ld_unit_zero (S := S1x1x128) hz3,
    View.ld_unit_zero (S := S128x128) hz2, View.ld_unit_zero (S := S1x128) hz2,
    View.readCov_unit_zero (S := S128x128) _ hz2, View.readCov_unit_zero (S := S1x128) _ hz2]

/-- Second tile, the normaliser output block: z plus the finished vector accumulator. -/
theorem outZ_second (c : Dev nD) (i : grid0.Coords) (a2 : Memref sig .tc .vmem S1x4096x128 .f32) (h2 : a2.IsWhole) (a3 : Memref sig .tc .vmem S1x4096x128 .f32) (h3 : a3.IsWhole) (a4 : Memref sig .tc .vmem S1x128x128 .f32) (h4 : a4.IsWhole) (a5 : Memref sig .tc .vmem S1x1x128 .f32) (h5 : a5.IsWhole) (a6 : Memref sig .tc .vmem S1x128x128 .f32) (h6 : a6.IsWhole) (a7 : Memref sig .tc .vmem S1x1x128 .f32) (h7 : a7.IsWhole) (a8 : Memref sig .tc .vmem S128x128 .f32) (h8 : a8.IsWhole) (a9 : Memref sig .tc .vmem S1x128 .f32) (h9 : a9.IsWhole) (hc0 : ¬cond0_0 i) (hc1 : cond0_1 i) (x0 : Vec F S1x4096x128 .f32) (x1 : Vec F S1x4096x128 .f32) (x2 : Vec F S1x128x128 .f32) (x3 : Vec F S1x1x128 .f32) (xs0 : Vec F S128x128 .f32) (xs1 : Vec F S1x128 .f32) :
    out0_B_5 c i a2 h2 a3 h3 a4 h4 a5 h5 a6 h6 a7 h7 a8 h8 a9 h9 hc0 hc1 x0 x1 x2 x3 xs0 xs1 = k0_pay3 x3 (k0_pay1 (k0_pay8 x0 xs1)) := by
  unfold out0_B_5
  rw [View.read_writes_eq_canon _ _ _ (cover0_B_5 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz3]
  simp only [View.readAt_eq_ld, h2.read_unread, h3.read_unread, h4.read_unread, h5.read_unread, h8.read_unread, h9.read_unread,
    View.ld_unit_zero (S := S1x4096x128) hz3, View.ld_unit_zero (S := S1x128x128) hz3, View.ld_unit_zero (S := S1x1x128) hz3,
    View.ld_unit_zero (S := S128x128) hz2, View.ld_unit_zero (S := S1x128) hz2,
    View.readCov_unit_zero (S := S128x128) _ hz2, View.readCov_unit_zero (S := S1x128) _ hz2]

end Cert.KernelIdeal.HandValue
end
-- ==== Proof.KChain.lean ====
/-
  What the two output blocks hold after each second-tile point of the kernel's grid.

  The grid walks the 64 (batch, head) pairs, two position tiles each: point 2·q is the first tile of pair q and
  point 2·q + 1 the second. The first tile resets the two accumulators and adds its contribution; the second adds
  its own and writes M (resp. z) plus the accumulator into the output block. So after point 2·q + 1 the output blocks
  hold the pair's M (resp. z) plus what the two tiles built from zero.
-/
import proofs.«168873_j23244363006471_1_alg».proof.Proof.KPieces
import Idealize.ShloMosaic.Lib.Pipeline.Value
import Idealize.ShloMosaic.Lib.ValueIdx

set_option maxRecDepth 16384

noncomputable section
open Idealize.ShloMosaic Idealize.ShloMosaic.TcCoe Idealize.SL.Sem Idealize.ShloMosaic.ValueIdx
open Idealize.ShloMosaic.Pipeline (Dat)

namespace Cert.KernelIdeal.HandValue
open Cert.KernelIdeal Cert.KernelIdeal.Gen
variable {F : FTy → Type} [FloatOps F]
variable (m : (ℓ : Loc nD τ sig) → Buf (Elt F) ℓ) (ρ : Dev nD → PrngReg)

/-- The four input blocks at a grid point, at their literal shapes: a tile of K, a tile of V, the pair's M, the pair's z. -/
abbrev kblk (c : Dev nD) (t : Fin cfg0.N) : Vec F S1x4096x128 .f32 := iblk m c 0 t
abbrev vblk (c : Dev nD) (t : Fin cfg0.N) : Vec F S1x4096x128 .f32 := iblk m c 1 t
abbrev mblk (c : Dev nD) (t : Fin cfg0.N) : Vec F S1x128x128 .f32 := iblk m c 2 t
abbrev zblk (c : Dev nD) (t : Fin cfg0.N) : Vec F S1x1x128 .f32 := iblk m c 3 t

/-- The grid point before a given one (used only at odd points). -/
def prev (t : Fin cfg0.N) : Fin cfg0.N := ⟨t.val - 1, Nat.lt_of_le_of_lt (Nat.sub_le _ _) t.isLt⟩

/-- What the memory output block holds after a second-tile point: M plus both tiles' contributions over zero. -/
def blockM (c : Dev nD) (t : Fin cfg0.N) : Vec F S1x128x128 .f32 :=
  k0_pay2 (mblk m c t) (k0_pay7 (kblk m c t) (mblk m c t) (vblk m c t)
    (k0_pay7 (kblk m c (prev t)) (mblk m c (prev t)) (vblk m c (prev t)) (k0_pay4 (F := F))))

/-- What the normaliser output block holds after a second-tile point: z plus both tiles' feature sums over zero. -/
def blockZ (c : Dev nD) (t : Fin cfg0.N) : Vec F S1x1x128 .f32 :=
  k0_pay3 (zblk m c t) (k0_pay1 (k0_pay8 (kblk m c t) (k0_pay1 (k0_pay8 (kblk m c (prev t)) (k0_pay5 (F := F))))))

/-- After a first-tile point the matrix accumulator holds that tile's contribution over zero. -/
theorem accM_at_first (c : Dev nD) (t : Fin cfg0.N) (h0 : t.val % 2 = 0) :
    (outsAt0 m c t.val t.isLt).2.2.1 = k0_pay7 (kblk m c t) (mblk m c t) (vblk m c t) (k0_pay4 (F := F)) := by
  have h1 : ¬t.val % 2 = 1 := by omega
  rw [outsAt0_A m c t h0 h1]; dsimp only
  exact accM_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

/-- After a first-tile point the vector accumulator holds that tile's feature sum over zero. -/
theorem accZ_at_first (c : Dev nD) (t : Fin cfg0.N) (h0 : t.val % 2 = 0) :
    (outsAt0 m c t.val t.isLt).2.2.2 = k0_pay1 (k0_pay8 (kblk m c t) (k0_pay5 (F := F))) := by
  have h1 : ¬t.val % 2 = 1 := by omega
  rw [outsAt0_A m c t h0 h1]; dsimp only
  exact accZ_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

/-- After a second-tile point the memory output block holds M plus both tiles' contributions. -/
theorem outM_at_second (c : Dev nD) (t : Fin cfg0.N) (h1 : t.val % 2 = 1) :
    (outsAt0 m c t.val t.isLt).1 = blockM m c t := by
  have h0 : ¬t.val % 2 = 0 := by omega
  have hp : (prev t).val % 2 = 0 := by show (t.val - 1) % 2 = 0; omega
  rw [outsAt0_B m c t h0 h1]; dsimp only
  refine (outM_second c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.2.1
    (outsAt0 m c (t.val - 1) (Nat.lt_of_le_of_lt (Nat.sub_le _ _) t.isLt)).2.2.2).trans ?_
  unfold blockM
  exact congrArg (fun a : Vec F S128x128 .f32 => (k0_pay2 (iblk m c 2 t) (k0_pay7 (iblk m c 0 t) (iblk m c 2 t) (iblk m c 1 t) a) : Vec F S1x128x128 .f32))
    (accM_at_first m c (prev t) hp)

/-- After a second-tile point the normaliser output block holds z plus both tiles' feature sums. -/
theorem outZ_at_second (c : Dev nD) (t : Fin cfg0.N) (h1 : t.val % 2 = 1) :
    (outsAt0 m c t.val t.isLt).2.1 = blockZ m c t := by
  have h0 : ¬t.val % 2 = 0 := by omega
  have hp : (prev t).val % 2 = 0 := by show (t.val - 1) % 2 = 0; omega
  rw [outsAt0_B m c t h0 h1]; dsimp only
  refine (outZ_second c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.2.1
    (outsAt0 m c (t.val - 1) (Nat.lt_of_le_of_lt (Nat.sub_le _ _) t.isLt)).2.2.2).trans ?_
  unfold blockZ
  exact congrArg (fun a : Vec F S1x128 .f32 => (k0_pay3 (iblk m c 3 t) (k0_pay1 (k0_pay8 (iblk m c 0 t) a)) : Vec F S1x1x128 .f32))
    (accZ_at_first m c (prev t) hp)

end Cert.KernelIdeal.HandValue
end
-- ==== Proof.KFinal.lean ====
/-
  The kernel's two result arrays after the whole run, and the program's run read at its results.

  Block q of the grid's memory result (64 × 128 × 128) is what point 2·q + 1 writes back, and every index lies in
  exactly that block; the same for the normaliser result (64 × 1 × 128). The two reshapes after the grid only regroup
  the leading axis 64 = 4 × 16 in row-major order.
-/
import proofs.«168873_j23244363006471_1_alg».proof.Proof.KChain
import Idealize.ShloMosaic.Lib.Pipeline.Value
import Idealize.ShloMosaic.Lib.ValueIdx
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.HandValue
open Cert.KernelIdeal Cert.KernelIdeal.Gen
variable {F : FTy → Type} [FloatOps F]
variable (m : (ℓ : Loc nD τ sig) → Buf (Elt F) ℓ) (ρ : Dev nD → PrngReg)

/-- The second-tile point of pair q. -/
def pt (q : Fin 64) : Fin cfg0.N := ⟨2 * q.val + 1, by rw [show cfg0.N = 128 from N_0]; have := q.isLt; omega⟩

/-- The grid's memory result: at (q, k, v) what point 2·q + 1 leaves at (0, k, v) of the output block. -/
def gridM (c : Dev nD) : Buf (Elt F) ((c : Thread nD τ).loc main_v4_0) :=
  fun i => blockM m c (pt (i 0)) (ix3 0 (i 1) (i 2))

/-- The grid's normaliser result: at (q, 0, k) what point 2·q + 1 leaves at (0, 0, k) of the output block. -/
def gridZ (c : Dev nD) : Buf (Elt F) ((c : Thread nD τ).loc main_v4_1) :=
  fun i => blockZ m c (pt (i 0)) (ix3 0 0 (i 2))

/-- The output windows' block indices, decided over the grid: point t works on pair t / 2. -/
theorem out_idx : ∀ t : Fin cfg0.N, win0_4.index t (0 : Fin 3) = t.val / 2 ∧ win0_4.index t (1 : Fin 3) = 0 ∧ win0_4.index t (2 : Fin 3) = 0
    ∧ win0_5.index t (0 : Fin 3) = t.val / 2 ∧ win0_5.index t (1 : Fin 3) = 0 ∧ win0_5.index t (2 : Fin 3) = 0 :=
  (by decide +kernel : ∀ t : Fin grid0.N, _)

/-- What a writing point writes back into the memory result is its block of the grid's memory result. -/
theorem flushedM (c : Dev nD) (t : Fin cfg0.N) (hf : (cfg0.win 4).flush t = true) :
    (dats m 0 c).flushed 4 t = ((cfg0.win 4).blk t).view.read (Elt F) (gridM m c) := by
  have h1 : t.val % 2 = 1 := (flush0_4 t).mp hf
  obtain ⟨e0, e1, e2, -, -, -⟩ := out_idx t
  show (cfg0.win 4).cut (grid0.coords t) ((dats m 0 c).after 4 t) = _
  rw [after0_4, outM_at_second m c t h1]
  funext j
  show blockM m c t j = gridM m c (((cfg0.win 4).blk t).view.emb j)
  have hj0 : (j 0).val < 1 := (j 0).isLt
  have hj1 : (j 1).val < 128 := (j 1).isLt
  have hj2 : (j 2).val < 128 := (j 2).isLt
  unfold gridM
  have ep : pt ((((cfg0.win 4).blk t).view.emb j) 0) = t := by
    apply Fin.ext
    show 2 * (win0_4.index t (0 : Fin 3) * 1 + 1 * (j 0).val) + 1 = t.val
    omega
  have ej : (ix3 (0 : Fin 1) ((((cfg0.win 4).blk t).view.emb j) 1) ((((cfg0.win 4).blk t).view.emb j) 2) : S1x128x128.Idx) = j := by
    funext a; apply Fin.ext
    match a with
    | ⟨0, _⟩ => show 0 = (j 0).val; omega
    | ⟨1, _⟩ => show win0_4.index t (1 : Fin 3) * 128 + 1 * (j 1).val = (j 1).val; omega
    | ⟨2, _⟩ => show win0_4.index t (2 : Fin 3) * 128 + 1 * (j 2).val = (j 2).val; omega
  rw [ep, ej]

/-- The same for the normaliser result. -/
theorem flushedZ (c : Dev nD) (t : Fin cfg0.N) (hf : (cfg0.win 5).flush t = true) :
    (dats m 0 c).flushed 5 t = ((cfg0.win 5).blk t).view.read (Elt F) (gridZ m c) := by
  have h1 : t.val % 2 = 1 := (flush0_5 t).mp hf
  obtain ⟨-, -, -, e0, e1, e2⟩ := out_idx t
  show (cfg0.win 5).cut (grid0.coords t) ((dats m 0 c).after 5 t) = _
  rw [after0_5, outZ_at_second m c t h1]
  funext j
  show blockZ m c t j = gridZ m c (((cfg0.win 5).blk t).view.emb j)
  have hj0 : (j 0).val < 1 := (j 0).isLt
  have hj1 : (j 1).val < 1 := (j 1).isLt
  have hj2 : (j 2).val < 128 := (j 2).isLt
  unfold gridZ
  have ep : pt ((((cfg0.win 5).blk t).view.emb j) 0) = t := by
    apply Fin.ext
    show 2 * (win0_5.index t (0 : Fin 3) * 1 + 1 * (j 0).val) + 1 = t.val
    omega
  have ej : (ix3 (0 : Fin 1) (0 : Fin 1) ((((cfg0.win 5).blk t).view.emb j) 2) : S1x1x128.Idx) = j := by
    funext a; apply Fin.ext
    match a with
    | ⟨0, _⟩ => show 0 = (j 0).val; omega
    | ⟨1, _⟩ => show 0 = (j 1).val; omega
    | ⟨2, _⟩ => show win0_5.index t (2 : Fin 3) * 128 + 1 * (j 2).val = (j 2).val; omega
  rw [ep, ej]

/-- An index of the memory result is in a point's block iff each coordinate is in the block's range. -/
theorem mem_blkM (t : Fin cfg0.N) (i : S64x128x128.Idx) :
    i ∈ ((cfg0.win 4).blk t).view.set ↔ ∀ a : Fin 3, win0_4.index t a * S1x128x128.size a ≤ (i a).val ∧ (i a).val < win0_4.index t a * S1x128x128.size a + S1x128x128.size a := by
  show i ∈ ((View.whole main_v4_0).slice (win0_4.rect t)).set ↔ _
  rw [View.set_slice_whole, Rect.mem_set_unit]
  exact Iff.rfl

theorem mem_blkZ (t : Fin cfg0.N) (i : S64x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v4_1).slice (win0_5.rect t)).set ↔ _
  rw [View.set_slice_whole, Rect.mem_set_unit]
  exact Iff.rfl

/-- The memory result after the run: every index (q, k, v) is in the block point 2·q + 1 writes back. -/
theorem finalM (c : Dev nD) : (dats m 0 c).arrAt 4 cfg0.N = gridM m c :=
  (dats m 0 c).arrAt_eq_of_cover 4 (gridM m c) (flushedM m c) fun i => by
    have hi0 : (i 0).val < 64 := (i 0).isLt
    have hi1 : (i 1).val < 128 := (i 1).isLt
    have hi2 : (i 2).val < 128 := (i 2).isLt
    refine ⟨pt (i 0), (flush0_4 _).mpr (by show (2 * (i 0).val + 1) % 2 = 1; omega), ?_⟩
    obtain ⟨e0, e1, e2, -, -, -⟩ := out_idx (pt (i 0))
    have ev : (pt (i 0)).val = 2 * (i 0).val + 1 := rfl
    rw [mem_blkM]
    intro a
    match a with
    | ⟨0, _⟩ => show win0_4.index (pt (i 0)) (0 : Fin 3) * 1 ≤ (i 0).val ∧ (i 0).val < win0_4.index (pt (i 0)) (0 : Fin 3) * 1 + 1; omega
    | ⟨1, _⟩ => show win0_4.index (pt (i 0)) (1 : Fin 3) * 128 ≤ (i 1).val ∧ (i 1).val < win0_4.index (pt (i 0)) (1 : Fin 3) * 128 + 128; omega
    | ⟨2, _⟩ => show win0_4.index (pt (i 0)) (2 : Fin 3) * 128 ≤ (i 2).val ∧ (i 2).val < win0_4.index (pt (i 0)) (2 : Fin 3) * 128 + 128; omega

/-- The normaliser result after the run. -/
theorem finalZ (c : Dev nD) : (dats m 0 c).arrAt 5 cfg0.N = gridZ m c :=
  (dats m 0 c).arrAt_eq_of_cover 5 (gridZ m c) (flushedZ m c) fun i => by
    have hi0 : (i 0).val < 64 := (i 0).isLt
    have hi1 : (i 1).val < 1 := (i 1).isLt
    have hi2 : (i 2).val < 128 := (i 2).isLt
    refine ⟨pt (i 0), (flush0_5 _).mpr (by show (2 * (i 0).val + 1) % 2 = 1; omega), ?_⟩
    obtain ⟨-, -, -, e0, e1, e2⟩ := out_idx (pt (i 0))
    have ev : (pt (i 0)).val = 2 * (i 0).val + 1 := rfl
    rw [mem_blkZ]
    intro a
    match a with
    | ⟨0, _⟩ => show win0_5.index (pt (i 0)) (0 : Fin 3) * 1 ≤ (i 0).val ∧ (i 0).val < win0_5.index (pt (i 0)) (0 : Fin 3) * 1 + 1; omega
    | ⟨1, _⟩ => show win0_5.index (pt (i 0)) (1 : Fin 3) * 1 ≤ (i 1).val ∧ (i 1).val < win0_5.index (pt (i 0)) (1 : Fin 3) * 1 + 1; omega
    | ⟨2, _⟩ => show win0_5.index (pt (i 0)) (2 : Fin 3) * 128 ≤ (i 2).val ∧ (i 2).val < win0_5.index (pt (i 0)) (2 : Fin 3) * 128 + 128; omega

end Cert.KernelIdeal.HandValue
end
-- ==== Proof.KBlocks.lean ====
/-
  The input blocks the kernel's grid reads, as entries of the program's four arguments.

  Before the grid the program regroups the two leading axes (4 × 16 → 64, row-major), so pair q = 16·b + h. Point
  2·q + j reads, of K and V, the j-th tile of 4096 positions of pair q, and of M and z the whole pair.
-/
import proofs.«168873_j23244363006471_1_alg».proof.Proof.KFinal
import Idealize.ShloMosaic.Lib.Pipeline.Value
import Idealize.ShloMosaic.Lib.ValueIdx
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.HandValue
open Cert.KernelIdeal Cert.KernelIdeal.Gen
variable {F : FTy → Type} [FloatOps F]
variable (m : (ℓ : Loc nD τ sig) → Buf (Elt F) ℓ) (ρ : Dev nD → PrngReg)

/-- The grid point of pair (b, h), tile j. -/
def tile (b : Fin 4) (h : Fin 16) (j : Fin 2) : Fin cfg0.N :=
  ⟨2 * (16 * b.val + h.val) + j.val, by rw [show cfg0.N = 128 from N_0]; have := b.isLt; have := h.isLt; have := j.isLt; omega⟩

/-- The pair's number 16·b + h. -/
def pair (b : Fin 4) (h : Fin 16) : Fin 64 := ⟨16 * b.val + h.val, by have := b.isLt; have := h.isLt; omega⟩

theorem pt_pair (b : Fin 4) (h : Fin 16) : pt (pair b h) = tile b h 1 := rfl
theorem prev_pt_pair (b : Fin 4) (h : Fin 16) : prev (pt (pair b h)) = tile b h 0 := Fin.ext (by show 2 * (16 * b.val + h.val) + 1 - 1 = 2 * (16 * b.val + h.val) + 0; omega)

/-- Position 4096·j + s of the 8192. -/
def pos (j : Fin 2) (s : Fin 4096) : Fin 8192 := ⟨4096 * j.val + s.val, by have := j.isLt; have := s.isLt; omega⟩

/-- The input windows' block indices, decided over the grid. -/
theorem in_idx : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-- The regrouped arrays the grid reads are the arguments' reshapes. -/
theorem V_v0 (c : Dev nD) : (V m c main_v0 : S64x8192x128.Idx → Elt F .f32)
    = shapeCast S64x8192x128 (m ((c : Thread nD τ).loc main_arg0)) shapeCasts_S4x16x8192x128_S64x8192x128 := by
  show StableHlo.after hostOps0 (fun b => m (c, b)) (Proc.devRef .tc main_v0) = _
  after_results; rfl
theorem V_v1 (c : Dev nD) : (V m c main_v1 : S64x8192x128.Idx → Elt F .f32)
    = shapeCast S64x8192x128 (m ((c : Thread nD τ).loc main_arg1)) shapeCasts_S4x16x8192x128_S64x8192x128 := by
  show StableHlo.after hostOps0 (fun b => m (c, b)) (Proc.devRef .tc main_v1) = _
  after_results; rfl
theorem V_v2 (c : Dev nD) : (V m c main_v2 : S64x128x128.Idx → Elt F .f32)
    = shapeCast S64x128x128 (m ((c : Thread nD τ).loc main_arg2)) shapeCasts_S4x16x128x128_S64x128x128 := by
  show StableHlo.after hostOps0 (fun b => m (c, b)) (Proc.devRef .tc main_v2) = _
  after_results; rfl
theorem V_v3 (c : Dev nD) : (V m c main_v3 : S64x1x128.Idx → Elt F .f32)
    = shapeCast S64x1x128 (m ((c : Thread nD τ).loc main_arg3)) shapeCasts_S4x16x128_S64x1x128 := by
  show StableHlo.after hostOps0 (fun b => m (c, b)) (Proc.devRef .tc main_v3) = _
  after_results; rfl

/-- The K tile of point (b, h, j) at (0, s, k) is K[b, h, 4096·j + s, k]. -/
theorem kblk_at (c : Dev nD) (b : Fin 4) (h : Fin 16) (j : Fin 2) (s : Fin 4096) (k : Fin 128) :
    kblk m c (tile b h j) (ix3 0 s k) = m ((c : Thread nD τ).loc main_arg0) (ix4 b h (pos j s) k) := by
  obtain ⟨e0, e1, e2, -, -, -, -, -, -, -, -, -⟩ := in_idx (tile b h j)
  have hb := b.isLt; have hh := h.isLt; have hj := j.isLt; have hs := s.isLt; have hk := k.isLt
  have ev : (tile b h j).val = 2 * (16 * b.val + h.val) + j.val := rfl
  show iblk m c 0 (tile b h j) (ix3 0 s k) = _
  unfold iblk
  rw [View.read_apply]
  show V m c main_v0 (((cfg0.win 0).blk (tile b h j)).view.emb (ix3 0 s k)) = _
  rw [V_v0]
  refine shapeCast_apply _ _ _ (ix4 b h (pos j s) k) ?_
  rw [Shape.rowMajor_val_four, Shape.rowMajor_val_three]
  show ((b.val * 16 + h.val) * 8192 + (4096 * j.val + s.val)) * 128 + k.val
    = ((win0_0.index (tile b h j) (0 : Fin 3) * 1 + 1 * 0) * 8192 + (win0_0.index (tile b h j) (1 : Fin 3) * 4096 + 1 * s.val)) * 128 + (win0_0.index (tile b h j) (2 : Fin 3) * 128 + 1 * k.val)
  rw [e0, e1, e2, ev]
  have q1 : (2 * (16 * b.val + h.val) + j.val) / 2 = 16 * b.val + h.val := by omega
  have q2 : (2 * (16 * b.val + h.val) + j.val) % 2 = j.val := by omega
  rw [q1, q2]; ring

/-- The V tile of point (b, h, j) at (0, s, v) is V[b, h, 4096·j + s, v]. -/
theorem vblk_at (c : Dev nD) (b : Fin 4) (h : Fin 16) (j : Fin 2) (s : Fin 4096) (v : Fin 128) :
    vblk m c (tile b h j) (ix3 0 s v) = m ((c : Thread nD τ).loc main_arg1) (ix4 b h (pos j s) v) := by
  obtain ⟨-, -, -, e0, e1, e2, -, -, -, -, -, -⟩ := in_idx (tile b h j)
  have hb := b.isLt; have hh := h.isLt; have hj := j.isLt; have hs := s.isLt; have hv := v.isLt
  have ev : (tile b h j).val = 2 * (16 * b.val + h.val) + j.val := rfl
  show iblk m c 1 (tile b h j) (ix3 0 s v) = _
  unfold iblk
  rw [View.read_apply]
  show V m c main_v1 (((cfg0.win 1).blk (tile b h j)).view.emb (ix3 0 s v)) = _
  rw [V_v1]
  refine shapeCast_apply _ _ _ (ix4 b h (pos j s) v) ?_
  rw [Shape.rowMajor_val_four, Shape.rowMajor_val_three]
  show ((b.val * 16 + h.val) * 8192 + (4096 * j.val + s.val)) * 128 + v.val
    = ((win0_1.index (tile b h j) (0 : Fin 3) * 1 + 1 * 0) * 8192 + (win0_1.index (tile b h j) (1 : Fin 3) * 4096 + 1 * s.val)) * 128 + (win0_1.index (tile b h j) (2 : Fin 3) * 128 + 1 * v.val)
  rw [e0, e1, e2, ev]
  have q1 : (2 * (16 * b.val + h.val) + j.val) / 2 = 16 * b.val + h.val := by omega
  have q2 : (2 * (16 * b.val + h.val) + j.val) % 2 = j.val := by omega
  rw [q1, q2]; ring

/-- The M block of either point of pair (b, h) at (0, k, v) is M[b, h, k, v]. -/
theorem mblk_at (c : Dev nD) (b : Fin 4) (h : Fin 16) (j : Fin 2) (k v : Fin 128) :
    mblk m c (tile b h j) (ix3 0 k v) = m ((c : Thread nD τ).loc main_arg2) (ix4 b h k v) := by
  obtain ⟨-, -, -, -, -, -, e0, e1, e2, -, -, -⟩ := in_idx (tile b h j)
  have hb := b.isLt; have hh := h.isLt; have hj := j.isLt; have hk := k.isLt; have hv := v.isLt
  have ev : (tile b h j).val = 2 * (16 * b.val + h.val) + j.val := rfl
  show iblk m c 2 (tile b h j) (ix3 0 k v) = _
  unfold iblk
  rw [View.read_apply]
  show V m c main_v2 (((cfg0.win 2).blk (tile b h j)).view.emb (ix3 0 k v)) = _
  rw [V_v2]
  refine shapeCast_apply _ _ _ (ix4 b h k v) ?_
  rw [Shape.rowMajor_val_four, Shape.rowMajor_val_three]
  show ((b.val * 16 + h.val) * 128 + k.val) * 128 + v.val
    = ((win0_2.index (tile b h j) (0 : Fin 3) * 1 + 1 * 0) * 128 + (win0_2.index (tile b h j) (1 : Fin 3) * 128 + 1 * k.val)) * 128 + (win0_2.index (tile b h j) (2 : Fin 3) * 128 + 1 * v.val)
  rw [e0, e1, e2, ev]
  have q1 : (2 * (16 * b.val + h.val) + j.val) / 2 = 16 * b.val + h.val := by omega
  rw [q1]; ring

/-- The z block of either point of pair (b, h) at (0, 0, k) is z[b, h, k]. -/
theorem zblk_at (c : Dev nD) (b : Fin 4) (h : Fin 16) (j : Fin 2) (k : Fin 128) :
    zblk m c (tile b h j) (ix3 0 0 k) = m ((c : Thread nD τ).loc main_arg3) (ix3 b h k) := by
  obtain ⟨-, -, -, -, -, -, -, -, -, e0, e1, e2⟩ := in_idx (tile b h j)
  have hb := b.isLt; have hh := h.isLt; have hj := j.isLt; have hk := k.isLt
  have ev : (tile b h j).val = 2 * (16 * b.val + h.val) + j.val := rfl
  show iblk m c 3 (tile b h j) (ix3 0 0 k) = _
  unfold iblk
  rw [View.read_apply]
  show V m c main_v3 (((cfg0.win 3).blk (tile b h j)).view.emb (ix3 0 0 k)) = _
  rw [V_v3]
  refine shapeCast_apply _ _ _ (ix3 b h k) ?_
  rw [Shape.rowMajor_val_three, Shape.rowMajor_val_three]
  show (b.val * 16 + h.val) * 128 + k.val
    = ((win0_3.index (tile b h j) (0 : Fin 3) * 1 + 1 * 0) * 1 + (win0_3.index (tile b h j) (1 : Fin 3) * 1 + 1 * 0)) * 128 + (win0_3.index (tile b h j) (2 : Fin 3) * 128 + 1 * k.val)
  rw [e0, e1, e2, ev]
  have q1 : (2 * (16 * b.val + h.val) + j.val) / 2 = 16 * b.val + h.val := by omega
  rw [q1]; ring

end Cert.KernelIdeal.HandValue
end
-- ==== Proof.Spec.lean ====
/-
  The delta-rule memory update, stated once over the extended reals, index by index.

  For a batch b, a head h, S = 8192 positions and 128-wide keys and values:
    φ(x)            = x + 1 for x > 0, e^x otherwise            (the feature map elu(x) + 1)
    Vex[s, v]       = Σ_k' φ(K[s, k']) · M[k', v]               (what the memory already returns)
    ΔM[k, v]        = Σ_s  φ(K[s, k]) · (V[s, v] − Vex[s, v])
    M'[k, v]        = M[k, v] + ΔM[k, v]
    z'[k]           = z[k] + Σ_s φ(K[s, k])
  The same quantities are also stated for ONE tile of 4096 positions, and the sum over the 8192 positions is the
  sum of its two halves: addition on the extended reals is commutative and associative, so no finiteness is used.
  Both forms of φ met in the two programs are shown to be this φ at every extended real, the infinities included.
-/
import Idealize.ShloMosaic.PureOps.Ideal
import Idealize.ShloMosaic.PureOps.Ideal.Laws
import Idealize.ShloMosaic.Lib.ValueIdx

noncomputable section

namespace Cert.DeltaSpec

open Idealize.ShloMosaic Idealize.ShloMosaic.ValueIdx
open scoped BigOperators

/-- Keys and values: batch × head × position × width. -/
abbrev SKV : Shape := ⟨4, ![4, 16, 8192, 128]⟩
/-- The memory matrix: batch × head × key width × value width. -/
abbrev SM : Shape := ⟨4, ![4, 16, 128, 128]⟩
/-- The normaliser: batch × head × key width. -/
abbrev SZ : Shape := ⟨3, ![4, 16, 128]⟩
/-- One tile of 4096 positions of one (batch, head), as a block with a leading unit axis. -/
abbrev TKV : Shape := ⟨3, ![1, 4096, 128]⟩
/-- One (batch, head)'s memory matrix as a block. -/
abbrev TM : Shape := ⟨3, ![1, 128, 128]⟩
/-- One (batch, head)'s normaliser as a block. -/
abbrev TZ : Shape := ⟨3, ![1, 1, 128]⟩

/-- The feature map elu(x) + 1 on the extended reals: x + 1 above zero, e^x at and below it (e^(−∞) = 0). -/
def phi (x : EReal) : EReal := if 0 < x then x + 1 else Ideal.exp x

/-! ## The whole arrays -/

def feat (K : SKV.Idx → EReal) (b : Fin 4) (h : Fin 16) (s : Fin 8192) (k : Fin 128) : EReal :=
  phi (K (ix4 b h s k))

def vexist (K : SKV.Idx → EReal) (M : SM.Idx → EReal) (b : Fin 4) (h : Fin 16) (s : Fin 8192) (v : Fin 128) : EReal :=
  ∑ k' : Fin 128, feat K b h s k' * M (ix4 b h k' v)

def deltaM (K V : SKV.Idx → EReal) (M : SM.Idx → EReal) (b : Fin 4) (h : Fin 16) (k v : Fin 128) : EReal :=
  ∑ s : Fin 8192, feat K b h s k * (V (ix4 b h s v) - vexist K M b h s v)

def sumFeat (K : SKV.Idx → EReal) (b : Fin 4) (h : Fin 16) (k : Fin 128) : EReal :=
  ∑ s : Fin 8192, feat K b h s k

/-- The updated memory. -/
def newM (K V : SKV.Idx → EReal) (M : SM.Idx → EReal) : SM.Idx → EReal :=
  fun i => M i + deltaM K V M (i 0) (i 1) (i 2) (i 3)

/-- The updated normaliser. -/
def newZ (K : SKV.Idx → EReal) (z : SZ.Idx → EReal) : SZ.Idx → EReal :=
  fun i => z i + sumFeat K (i 0) (i 1) (i 2)

theorem newM_ix (K V : SKV.Idx → EReal) (M : SM.Idx → EReal) (b : Fin 4) (h : Fin 16) (k v : Fin 128) :
    newM K V M (ix4 b h k v) = M (ix4 b h k v) + deltaM K V M b h k v := rfl

theorem newZ_ix (K : SKV.Idx → EReal) (z : SZ.Idx → EReal) (b : Fin 4) (h : Fin 16) (k : Fin 128) :
    newZ K z (ix3 b h k) = z (ix3 b h k) + sumFeat K b h k := rfl

/-! ## One tile of 4096 positions -/

def tileFeat (xK : TKV.Idx → EReal) (s : Fin 4096) (k : Fin 128) : EReal := phi (xK (ix3 0 s k))

def tileVex (xK : TKV.Idx → EReal) (xM : TM.Idx → EReal) (s : Fin 4096) (v : Fin 128) : EReal :=
  ∑ k' : Fin 128, tileFeat xK s k' * xM (ix3 0 k' v)

def tileDelta (xK xV : TKV.Idx → EReal) (xM : TM.Idx → EReal) (k v : Fin 128) : EReal :=
  ∑ s : Fin 4096, tileFeat xK s k * (xV (ix3 0 s v) - tileVex xK xM s v)

def tileSum (xK : TKV.Idx → EReal) (k : Fin 128) : EReal := ∑ s : Fin 4096, tileFeat xK s k

/-! ## A sum over 8192 positions is the sum of its two halves -/

theorem sum_two_tiles {A : Type*} [AddCommMonoid A] (f : Fin 8192 → A) :
    ∑ s : Fin 8192, f s
      = ∑ s : Fin 4096, f ⟨s.val, by have := s.isLt; omega⟩ + ∑ s : Fin 4096, f ⟨4096 + s.val, by have := s.isLt; omega⟩ := by
  have h := Fin.sum_univ_add (fun i : Fin (4096 + 4096) => f ⟨i.val, by have := i.isLt; omega⟩)
  refine Eq.trans ?_ (h.trans ?_)
  · rfl
  · congr 1

/-! ## The two spellings of φ -/

/-- x + 1 selected where x > 0, else e^x: the definition, through the comparison's bit. -/
theorem phi_select (x : EReal) :
    Scalar.select (Ideal.cmp .ogt x 0) (x + 1) (Ideal.exp x) = phi x := by
  unfold phi Scalar.select Ideal.cmp
  by_cases h : (0 : EReal) < x <;> simp [h]

/-- elu(x) + 1 as jax writes it — x where x > 0, else 1 · (e^y − 1) with y = 0 where x > 0 and x elsewhere, then + 1 —
    is φ: above zero both are x + 1; at or below zero (e^x − 1) + 1 = e^x, for real x by arithmetic and at −∞ as 0 − 1 + 1 = 0. -/
theorem phi_elu (x : EReal) :
    Scalar.select (Ideal.cmp .ogt x 0) x (1 * (Ideal.exp (Scalar.select (Ideal.cmp .ogt x 0) 0 x) - 1)) + 1 = phi x := by
  unfold phi Scalar.select Ideal.cmp
  by_cases h : (0 : EReal) < x
  · simp [h]
  · simp only [h, decide_false, BitVec.ofBool_false, one_mul, if_false]
    rw [if_neg (by decide)]
    induction x using EReal.rec with
    | bot =>
      show (0 : EReal) - 1 + 1 = 0
      rw [← EReal.coe_zero, ← EReal.coe_one, ← EReal.coe_sub, ← EReal.coe_add]
      congr 1; ring
    | top => exact absurd (EReal.zero_lt_top) h
    | coe r =>
      show ((Real.exp r : ℝ) : EReal) - 1 + 1 = ((Real.exp r : ℝ) : EReal)
      rw [← EReal.coe_one, ← EReal.coe_sub, ← EReal.coe_add]
      congr 1; ring

end Cert.DeltaSpec

end
-- ==== Proof.TileValue.lean ====
/-
  One grid point's arithmetic of the idealized kernel, read at an index over the extended reals.
-/
import proofs.«168873_j23244363006471_1_alg».proof.Proof.Spec
import proofs.«168873_j23244363006471_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileValue

open Idealize.ShloMosaic Idealize.ShloMosaic.TcCoe Idealize.ShloMosaic.ValueIdx
open Cert.KernelIdeal Cert.KernelIdeal.Gen Cert.DeltaSpec
open scoped BigOperators

/-! ## The constant one -/

/-- The word 0x3F800000 denotes the real number 1. -/
private theorem ofBits_one_f32 : Ideal.ofBits .f32 0x3F800000#32 = 1 :=
  IdealRules.sign_bit.ideal_onePat .f32

/-! ## The feature map at a position and a key coordinate -/

/-- The feature block at (s, k) is φ of the key block at (0, s, k): the leading unit axis is dropped, and
    "x + 1 where x > 0, else e^x" is φ at every extended real. -/
theorem feat_apply (xK : Vec Ideal S1x4096x128 .f32) (s : Fin 4096) (k : Fin 128) :
    k0_pay6 (F := Ideal) xK (ix2 s k) = tileFeat xK s k := by
  have hc : shapeCast S4096x128 xK shapeCasts_S1x4096x128_S4096x128 (ix2 s k) = xK (ix3 0 s k) :=
    shapeCast_1ab_ab_apply xK _ s k
  unfold k0_pay6 tileFeat
  show Scalar.select
      (Ideal.cmp .ogt (shapeCast S4096x128 xK shapeCasts_S1x4096x128_S4096x128 (ix2 s k)) (Ideal.ofBits .f32 0x00000000#32))
      (shapeCast S4096x128 xK shapeCasts_S1x4096x128_S4096x128 (ix2 s k) + Ideal.ofBits .f32 0x3F800000#32)
      (Ideal.exp (shapeCast S4096x128 xK shapeCasts_S1x4096x128_S4096x128 (ix2 s k))) = phi (xK (ix3 0 s k))
  rw [hc, Ideal.ofBits_zero_f32, ofBits_one_f32]
  exact phi_select _

/-! ## The two products' operand indices, coordinate by coordinate -/

/-- Features times memory, out[s, v] = Σ_c lhs[s, c] · rhs[c, v]: the left operand's row is the output's row, -/
private theorem lhsKM_0 (j : S4096x128.Idx) (q : dot_S4096x128_S128x128_S4096x128_1_0_0_1_n_n.contr.Idx) :
    (dot_S4096x128_S128x128_S4096x128_1_0_0_1_n_n.lhsIdx j q 0 : ℕ) = j 0 := by
  simp [DotDims.lhsIdx, dot_S4096x128_S128x128_S4096x128_1_0_0_1_n_n]; rfl
/-- its column the contracted coordinate; -/
private theorem lhsKM_1 (j : S4096x128.Idx) (q : dot_S4096x128_S128x128_S4096x128_1_0_0_1_n_n.contr.Idx) :
    (dot_S4096x128_S128x128_S4096x128_1_0_0_1_n_n.lhsIdx j q 1 : ℕ) = q ⟨0, by decide⟩ := by
  simp [DotDims.lhsIdx, dot_S4096x128_S128x128_S4096x128_1_0_0_1_n_n]; rfl
/-- the right operand's row is the contracted coordinate, -/
private theorem rhsKM_0 (j : S4096x128.Idx) (q : dot_S4096x128_S128x128_S4096x128_1_0_0_1_n_n.contr.Idx) :
    (dot_S4096x128_S128x128_S4096x128_1_0_0_1_n_n.rhsIdx j q 0 : ℕ) = q ⟨0, by decide⟩ := by
  simp [DotDims.rhsIdx, dot_S4096x128_S128x128_S4096x128_1_0_0_1_n_n]; rfl
/-- its column the output's column. -/
private theorem rhsKM_1 (j : S4096x128.Idx) (q : dot_S4096x128_S128x128_S4096x128_1_0_0_1_n_n.contr.Idx) :
    (dot_S4096x128_S128x128_S4096x128_1_0_0_1_n_n.rhsIdx j q 1 : ℕ) = j 1 := by
  simp [DotDims.rhsIdx, dot_S4096x128_S128x128_S4096x128_1_0_0_1_n_n]; rfl

/-- Features transposed times residual, out[k, v] = Σ_c lhs[c, k] · rhs[c, v]: the left operand's row is the
    contracted coordinate, -/
private theorem lhsKV_0 (j : S128x128.Idx) (q : dot_S4096x128_S4096x128_S128x128_0_0_1_1_n_n.contr.Idx) :
    (dot_S4096x128_S4096x128_S128x128_0_0_1_1_n_n.lhsIdx j q 0 : ℕ) = q ⟨0, by decide⟩ := by
  simp [DotDims.lhsIdx, dot_S4096x128_S4096x128_S128x128_0_0_1_1_n_n]; rfl
/-- its column the output's row; -/
private theorem lhsKV_1 (j : S128x128.Idx) (q : dot_S4096x128_S4096x128_S128x128_0_0_1_1_n_n.contr.Idx) :
    (dot_S4096x128_S4096x128_S128x128_0_0_1_1_n_n.lhsIdx j q 1 : ℕ) = j 0 := by
  simp [DotDims.lhsIdx, dot_S4096x128_S4096x128_S128x128_0_0_1_1_n_n]; rfl
/-- the right operand's row is the contracted coordinate too, -/
private theorem rhsKV_0 (j : S128x128.Idx) (q : dot_S4096x128_S4096x128_S128x128_0_0_1_1_n_n.contr.Idx) :
    (dot_S4096x128_S4096x128_S128x128_0_0_1_1_n_n.rhsIdx j q 0 : ℕ) = q ⟨0, by decide⟩ := by
  simp [DotDims.rhsIdx, dot_S4096x128_S4096x128_S128x128_0_0_1_1_n_n]; rfl
/-- its column the output's column. -/
private theorem rhsKV_1 (j : S128x128.Idx) (q : dot_S4096x128_S4096x128_S128x128_0_0_1_1_n_n.contr.Idx) :
    (dot_S4096x128_S4096x128_S128x128_0_0_1_1_n_n.rhsIdx j q 1 : ℕ) = j 1 := by
  simp [DotDims.rhsIdx, dot_S4096x128_S4096x128_S128x128_0_0_1_1_n_n]; rfl

/-! ## The two products at an index -/

/-- Into the zero accumulator, features times memory at (s, v) is Σ_c A[s, c] · B[c, v] over the 128 key coordinates. -/
theorem matmulKM_apply (A : FVec Ideal S4096x128 .bf16) (B : FVec Ideal S128x128 .bf16) (s : Fin 4096) (v : Fin 128) :
    matmul dot_S4096x128_S128x128_S4096x128_1_0_0_1_n_n none A B (constant (F := Ideal) S4096x128 .f32 0x00000000#32) (ix2 s v)
      = ∑ c : Fin 128, A (ix2 s c) * B (ix2 c v) := by
  show FloatOps.matmul _ none A B (constant (F := Ideal) S4096x128 .f32 0x00000000#32) (ix2 s v) = _
  rw [Ideal.matmul_constant_zero_apply,
    ← Equiv.sum_comp (contrEquiv1 dot_S4096x128_S128x128_S4096x128_1_0_0_1_n_n 128 rfl rfl).symm]
  refine Finset.sum_congr rfl fun c _ => ?_
  have hq := contrEquiv1_symm_val dot_S4096x128_S128x128_S4096x128_1_0_0_1_n_n 128 rfl rfl c
  have hl : dot_S4096x128_S128x128_S4096x128_1_0_0_1_n_n.lhsIdx (ix2 s v)
      ((contrEquiv1 dot_S4096x128_S128x128_S4096x128_1_0_0_1_n_n 128 rfl rfl).symm c) = ix2 s c := by
    funext a; apply Fin.ext
    match a with
    | ⟨0, _⟩ => exact lhsKM_0 _ _
    | ⟨1, _⟩ => exact (lhsKM_1 _ _).trans hq
  have hr : dot_S4096x128_S128x128_S4096x128_1_0_0_1_n_n.rhsIdx (ix2 s v)
      ((contrEquiv1 dot_S4096x128_S128x128_S4096x128_1_0_0_1_n_n 128 rfl rfl).symm c) = ix2 c v := by
    funext a; apply Fin.ext
    match a with
    | ⟨0, _⟩ => exact (rhsKM_0 _ _).trans hq
    | ⟨1, _⟩ => exact rhsKM_1 _ _
  rw [hl, hr]

/-- Into the zero accumulator, features transposed times residual at (k, v) is Σ_s A[s, k] · B[s, v] over the tile's
    4096 positions. -/
theorem matmulKV_apply (A : FVec Ideal S4096x128 .bf16) (B : FVec Ideal S4096x128 .bf16) (k v : Fin 128) :
    matmul dot_S4096x128_S4096x128_S128x128_0_0_1_1_n_n none A B (constant (F := Ideal) S128x128 .f32 0x00000000#32) (ix2 k v)
      = ∑ s : Fin 4096, A (ix2 s k) * B (ix2 s v) := by
  show FloatOps.matmul _ none A B (constant (F := Ideal) S128x128 .f32 0x00000000#32) (ix2 k v) = _
  rw [Ideal.matmul_constant_zero_apply,
    ← Equiv.sum_comp (contrEquiv1 dot_S4096x128_S4096x128_S128x128_0_0_1_1_n_n 4096 rfl rfl).symm]
  refine Finset.sum_congr rfl fun c _ => ?_
  have hq := contrEquiv1_symm_val dot_S4096x128_S4096x128_S128x128_0_0_1_1_n_n 4096 rfl rfl c
  have hl : dot_S4096x128_S4096x128_S128x128_0_0_1_1_n_n.lhsIdx (ix2 k v)
      ((contrEquiv1 dot_S4096x128_S4096x128_S128x128_0_0_1_1_n_n 4096 rfl rfl).symm c) = ix2 c k := by
    funext a; apply Fin.ext
    match a with
    | ⟨0, _⟩ => exact (lhsKV_0 _ _).trans hq
    | ⟨1, _⟩ => exact lhsKV_1 _ _
  have hr : dot_S4096x128_S4096x128_S128x128_0_0_1_1_n_n.rhsIdx (ix2 k v)
      ((contrEquiv1 dot_S4096x128_S4096x128_S128x128_0_0_1_1_n_n 4096 rfl rfl).symm c) = ix2 c v := by
    funext a; apply Fin.ext
    match a with
    | ⟨0, _⟩ => exact (rhsKV_0 _ _).trans hq
    | ⟨1, _⟩ => exact rhsKV_1 _ _
  rw [hl, hr]

/-! ## One tile's step of the two accumulators -/

/-- The memory accumulator after a tile, at (k, v): what it held plus the tile's delta
    Σ_s φ(K[s, k]) · (V[s, v] − Σ_c φ(K[s, c]) · M[c, v]). The format changes are the identity on the extended reals. -/
theorem step_apply (xK xV : Vec Ideal S1x4096x128 .f32) (xM : Vec Ideal S1x128x128 .f32)
    (acc : Vec Ideal S128x128 .f32) (k v : Fin 128) :
    k0_pay7 xK xM xV acc (ix2 k v) = acc (ix2 k v) + tileDelta xK xV xM k v := by
  unfold k0_pay7
  simp only [shapeCast_self]
  rw [addf_apply, matmulKV_apply]
  unfold tileDelta
  refine congrArg (acc (ix2 k v) + ·) (Finset.sum_congr rfl fun s _ => ?_)
  rw [truncf_apply, truncf_apply, feat_apply, subf_apply, shapeCast_1ab_ab_apply, matmulKM_apply]
  unfold tileVex
  refine congrArg (fun t => tileFeat xK s k * (xV (ix3 0 s v) - t)) (Finset.sum_congr rfl fun c _ => ?_)
  rw [truncf_apply, truncf_apply, feat_apply, shapeCast_1ab_ab_apply]

/-- The index the sum over positions inserts: position s put in front of the key coordinate k. -/
private theorem lift_pos (k : Fin 128) (s : Fin 4096) :
    reduces_S4096x128_S128.lift (ix1 k) s = ix2 s k := by
  funext a; apply Fin.ext
  match a with
  | ⟨0, _⟩ => rfl
  | ⟨1, _⟩ => rfl

/-- The normaliser accumulator after a tile, at (0, k): what it held plus Σ_s φ(K[s, k]). -/
theorem lane_apply (xK : Vec Ideal S1x4096x128 .f32) (acc : Vec Ideal S1x128 .f32) (k : Fin 128) :
    k0_pay8 xK acc (ix2 0 k) = acc (ix2 0 k) + tileSum xK k := by
  unfold k0_pay8
  rw [addf_apply, shapeCast_a_1a_apply]
  refine congrArg (acc (ix2 0 k) + ·) ?_
  refine (Ideal.multiReduction_add_single (k0_pay6 (F := Ideal) xK) 0x00000000#32 reduces_S4096x128_S128 (.inl rfl) rfl
    (ix1 k)).trans ?_
  unfold tileSum
  show ∑ s : Fin 4096, k0_pay6 (F := Ideal) xK (reduces_S4096x128_S128.lift (ix1 k) s) = ∑ s : Fin 4096, tileFeat xK s k
  refine Finset.sum_congr rfl fun s _ => ?_
  rw [lift_pos, feat_apply]

/-! ## The resets, the final additions and the trivial cast -/

/-- The memory accumulator is reset to zero everywhere. -/
theorem resetM_apply (k v : Fin 128) : k0_pay4 (F := Ideal) (ix2 k v) = 0 := by
  unfold k0_pay4
  rw [shapeCast_self]
  exact Ideal.ofBits_zero_f32

/-- The normaliser accumulator is reset to zero everywhere. -/
theorem resetZ_apply (k : Fin 128) : k0_pay5 (F := Ideal) (ix2 0 k) = 0 := by
  unfold k0_pay5
  rw [shapeCast_self]
  exact Ideal.ofBits_zero_f32

/-- A cast to the same shape changes nothing. -/
theorem same_eq (x : FVec Ideal S1x128 .f32) : k0_pay1 x = x := by
  unfold k0_pay1
  exact shapeCast_self _ _

/-- The memory written back at (0, k, v): the block entry plus the accumulator at (k, v). -/
theorem outM_apply (xM : Vec Ideal S1x128x128 .f32) (acc : Vec Ideal S128x128 .f32) (k v : Fin 128) :
    k0_pay2 xM acc (ix3 0 k v) = xM (ix3 0 k v) + acc (ix2 k v) := by
  unfold k0_pay2
  rw [shapeCast_ab_1ab_apply, addf_apply, shapeCast_1ab_ab_apply]

/-- The normaliser written back at (0, 0, k): the block entry plus the accumulator at (0, k). -/
theorem outZ_apply (xz : Vec Ideal S1x1x128 .f32) (acc : Vec Ideal S1x128 .f32) (k : Fin 128) :
    k0_pay3 xz acc (ix3 0 0 k) = xz (ix3 0 0 k) + acc (ix2 0 k) := by
  unfold k0_pay3
  rw [shapeCast_ab_1ab_apply, addf_apply, shapeCast_1ab_ab_apply]

/-! ## Two tiles: zero, then one tile's step, then the other's, then the block entry added -/

theorem payM (xK0 xK1 xV0 xV1 : Vec Ideal S1x4096x128 .f32) (xM0 xM1 : Vec Ideal S1x128x128 .f32) (k v : Fin 128) :
    k0_pay2 (F := Ideal) xM1 (k0_pay7 xK1 xM1 xV1 (k0_pay7 xK0 xM0 xV0 (k0_pay4 (F := Ideal)))) (ix3 0 k v)
      = xM1 (ix3 0 k v) + (tileDelta xK0 xV0 xM0 k v + tileDelta xK1 xV1 xM1 k v) := by
  rw [outM_apply, step_apply, step_apply, resetM_apply, zero_add]

theorem payZ (xK0 xK1 : Vec Ideal S1x4096x128 .f32) (xz : Vec Ideal S1x1x128 .f32) (k : Fin 128) :
    k0_pay3 (F := Ideal) xz (k0_pay1 (k0_pay8 xK1 (k0_pay1 (k0_pay8 xK0 (k0_pay5 (F := Ideal)))))) (ix3 0 0 k)
      = xz (ix3 0 0 k) + (tileSum xK0 k + tileSum xK1 k) := by
  rw [outZ_apply, same_eq, lane_apply, same_eq, lane_apply, resetZ_apply, zero_add]

end Cert.KernelIdeal.TileValue

end
-- ==== Proof.KRun.lean ====
/-
  The idealized kernel's run, read at its two results: the updated memory and the updated normaliser of the
  specification, as functions of the four arguments.

  After the grid the two reshapes regroup the leading axis 64 = 4 × 16, so entry (b, h, k, v) of the memory result is
  entry (16·b + h, k, v) of the grid's, which is what the second-tile point of that pair left: M plus the two tiles'
  contributions. A tile's contribution, written over the argument arrays, is the specification's sum over that tile's
  4096 positions, and the two halves add up to the sum over all 8192.
-/
import proofs.«168873_j23244363006471_1_alg».proof.Proof.KBlocks
import proofs.«168873_j23244363006471_1_alg».proof.Proof.TileValue
import proofs.«168873_j23244363006471_1_alg».proof.Proof.Spec

set_option maxRecDepth 16384

noncomputable section
open Idealize.ShloMosaic Idealize.ShloMosaic.TcCoe Idealize.SL.Sem Idealize.ShloMosaic.ValueIdx
open Idealize.ShloMosaic.Pipeline (Dat)
open scoped BigOperators

namespace Cert.KernelIdeal.HandValue
open Cert.KernelIdeal Cert.KernelIdeal.Gen Cert.DeltaSpec

section AnyF
variable {F : FTy → Type} [FloatOps F]
variable (m : (ℓ : Loc nD τ sig) → Buf (Elt F) ℓ) (ρ : Dev nD → PrngReg)

/-- The program's first result is the reshape of the grid's memory result. -/
theorem tailM (c : Dev nD) : Pipeline.afterTail₀ cfgs (dats m) 0 (V0 m) [hostOps1] c main_v5
    = shapeCast S4x16x128x128 (gridM m c) shapeCasts_S64x128x128_S4x16x128x128 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v4_0) = gridM m c :=
    (Pipeline.withArrays_arr spec0 launch0.win.arr_inj c _ _ 4).trans (finalM m c)
  rw [e]; rfl

/-- The program's second result is the reshape of the grid's normaliser result. -/
theorem tailZ (c : Dev nD) : Pipeline.afterTail₀ cfgs (dats m) 0 (V0 m) [hostOps1] c main_v6
    = shapeCast S4x16x128 (gridZ m c) shapeCasts_S64x1x128_S4x16x128 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v4_1) = gridZ m c :=
    (Pipeline.withArrays_arr spec0 launch0.win.arr_inj c _ _ 5).trans (finalZ m c)
  rw [e]; rfl

/-- The run, read: both results at the reshapes of the grid's results, the arguments unchanged. -/
theorem run_grid : θ_run defs (onTc (τ := τ) (main (F := F))) ⟨m, fun _ => 0, ρ⟩ fun r => ∀ c : Dev nD,
      r.2.mem ((c.tc : Thread nD τ).loc main_v5) = shapeCast S4x16x128x128 (gridM m c) shapeCasts_S64x128x128_S4x16x128x128
      ∧ r.2.mem ((c.tc : Thread nD τ).loc main_v6) = shapeCast S4x16x128 (gridZ m c) shapeCasts_S64x1x128_S4x16x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tailM m c),
     ((h c).2 main_v6 (Pipeline.mem_restRefs_of main_v6 (by decide) (by decide))).trans (tailZ m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end AnyF

/-- A sum over the 8192 positions is the sum over the first tile's plus the sum over the second tile's. -/
theorem sum_pos (f : Fin 8192 → EReal) :
    ∑ s : Fin 8192, f s = ∑ s : Fin 4096, f (pos 0 s) + ∑ s : Fin 4096, f (pos 1 s) := by
  rw [sum_two_tiles]
  refine congrArg₂ (· + ·) (Finset.sum_congr rfl fun s _ => congrArg f (Fin.ext ?_)) (Finset.sum_congr rfl fun s _ => congrArg f (Fin.ext ?_))
  · show s.val = 4096 * 0 + s.val; omega
  · show 4096 + s.val = 4096 * 1 + s.val; omega

variable (m : (ℓ : Loc nD τ sig) → Buf (Elt Ideal) ℓ) (ρ : Dev nD → PrngReg)

/-- The four argument arrays as arrays of extended reals. -/
abbrev argK (c : Dev nD) : SKV.Idx → EReal := m ((c.tc : Thread nD τ).loc main_arg0)
abbrev argV (c : Dev nD) : SKV.Idx → EReal := m ((c.tc : Thread nD τ).loc main_arg1)
abbrev argM (c : Dev nD) : SM.Idx → EReal := m ((c.tc : Thread nD τ).loc main_arg2)
abbrev argZ (c : Dev nD) : SZ.Idx → EReal := m ((c.tc : Thread nD τ).loc main_arg3)

/-- A tile's features are the specification's features at the tile's positions. -/
theorem tileFeat_eq (c : Dev nD) (b : Fin 4) (h : Fin 16) (j : Fin 2) (s : Fin 4096) (k : Fin 128) :
    tileFeat (kblk m c (tile b h j)) s k = feat (argK m c) b h (pos j s) k := by
  unfold tileFeat feat
  rw [kblk_at]

/-- A tile's contribution to ΔM is the specification's sum over the tile's positions. -/
theorem tileDelta_eq (c : Dev nD) (b : Fin 4) (h : Fin 16) (j : Fin 2) (k v : Fin 128) :
    tileDelta (kblk m c (tile b h j)) (vblk m c (tile b h j)) (mblk m c (tile b h j)) k v
      = ∑ s : Fin 4096, feat (argK m c) b h (pos j s) k
          * (argV m c (ix4 b h (pos j s) v) - vexist (argK m c) (argM m c) b h (pos j s) v) := by
  unfold tileDelta
  refine Finset.sum_congr rfl fun s _ => ?_
  rw [tileFeat_eq, vblk_at]
  unfold tileVex vexist
  congr 2
  refine Finset.sum_congr rfl fun k' _ => ?_
  rw [tileFeat_eq, mblk_at]

/-- A tile's feature sum is the specification's sum over the tile's positions. -/
theorem tileSum_eq (c : Dev nD) (b : Fin 4) (h : Fin 16) (j : Fin 2) (k : Fin 128) :
    tileSum (kblk m c (tile b h j)) k = ∑ s : Fin 4096, feat (argK m c) b h (pos j s) k := by
  unfold tileSum
  exact Finset.sum_congr rfl fun s _ => tileFeat_eq m c b h j s k

/-- The first result is the specification's updated memory. -/
theorem resM_eq (c : Dev nD) :
    shapeCast S4x16x128x128 (gridM m c) shapeCasts_S64x128x128_S4x16x128x128
      = newM (argK m c) (argV m c) (argM m c) := by
  funext i
  obtain ⟨b, h, k, v, rfl⟩ : ∃ (b : Fin 4) (h : Fin 16) (k v : Fin 128), i = ix4 b h k v := ⟨i 0, i 1, i 2, i 3, eq_ix4 i⟩
  have hb := b.isLt; have hh := h.isLt; have hk := k.isLt; have hv := v.isLt
  rw [newM_ix]
  refine (shapeCast_apply _ _ _ (ix3 (pair b h) k v) ?_).trans ?_
  · rw [Shape.rowMajor_val_three, Shape.rowMajor_val_four]
    show ((16 * b.val + h.val) * 128 + k.val) * 128 + v.val = ((b.val * 16 + h.val) * 128 + k.val) * 128 + v.val
    ring
  show blockM m c (pt (pair b h)) (ix3 0 k v) = _
  unfold blockM
  rw [prev_pt_pair, pt_pair]
  refine (Cert.KernelIdeal.TileValue.payM (kblk m c (tile b h 0)) (kblk m c (tile b h 1)) (vblk m c (tile b h 0)) (vblk m c (tile b h 1))
    (mblk m c (tile b h 0)) (mblk m c (tile b h 1)) k v).trans ?_
  rw [mblk_at, tileDelta_eq, tileDelta_eq]
  unfold deltaM
  rw [sum_pos]

/-- The second result is the specification's updated normaliser. -/
theorem resZ_eq (c : Dev nD) :
    shapeCast S4x16x128 (gridZ m c) shapeCasts_S64x1x128_S4x16x128
      = newZ (argK m c) (argZ m c) := by
  funext i
  obtain ⟨b, h, k, rfl⟩ : ∃ (b : Fin 4) (h : Fin 16) (k : Fin 128), i = ix3 b h k := ⟨i 0, i 1, i 2, eq_ix3 i⟩
  have hb := b.isLt; have hh := h.isLt; have hk := k.isLt
  rw [newZ_ix]
  refine (shapeCast_apply _ _ _ (ix3 (pair b h) 0 k) ?_).trans ?_
  · rw [Shape.rowMajor_val_three, Shape.rowMajor_val_three]
    show ((16 * b.val + h.val) * 1 + 0) * 128 + k.val = (b.val * 16 + h.val) * 128 + k.val
    ring
  show blockZ m c (pt (pair b h)) (ix3 0 0 k) = _
  unfold blockZ
  rw [prev_pt_pair, pt_pair]
  refine (Cert.KernelIdeal.TileValue.payZ (kblk m c (tile b h 0)) (kblk m c (tile b h 1)) (zblk m c (tile b h 1)) k).trans ?_
  rw [zblk_at, tileSum_eq, tileSum_eq]
  unfold sumFeat
  rw [sum_pos]

/-- The idealized kernel's run at the specification: both results, and the arguments unchanged. -/
theorem run_spec :
    θ_run (defs (F := Ideal)) (onTc (τ := τ) (main (F := Ideal))) ⟨m, fun _ => 0, ρ⟩ fun r => ∀ c : Dev nD,
      r.2.mem ((c.tc : Thread nD τ).loc main_v5)
          = newM (m ((c.tc : Thread nD τ).loc main_arg0)) (m ((c.tc : Thread nD τ).loc main_arg1)) (m ((c.tc : Thread nD τ).loc main_arg2))
      ∧ r.2.mem ((c.tc : Thread nD τ).loc main_v6)
          = newZ (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (resM_eq m c), (h c).2.1.trans (resZ_eq m c), (h c).2.2⟩) (run_grid m ρ)

end Cert.KernelIdeal.HandValue
end
-- ==== Proof.RefOps.lean ====
/-
  The reference program as one straight line of host operations, and its run: each result buffer ends at the
  composed term of the operations over the argument arrays, for any float values.
-/
import proofs.«168873_j23244363006471_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The scalar zero broadcast over the key array. -/
def zeros : FVec F S4x16x8192x128 .f32 :=
  broadcastInDim S4x16x8192x128 ![] bcast_S_S4x16x8192x128 (constant S_ .f32 0x00000000#32)

/-- The scalar one broadcast over the key array. -/
def ones : FVec F S4x16x8192x128 .f32 :=
  broadcastInDim S4x16x8192x128 ![] bcast_S_S4x16x8192x128 (constant S_ .f32 0x3F800000#32)

/-- The feature map as the reference spells it: elu(K) + 1, with elu(K) = K where K > 0 and 1 · expm1(K') elsewhere,
    K' being 0 where K > 0 and K elsewhere. -/
def refPhi (K : FVec F S4x16x8192x128 .f32) : FVec F S4x16x8192x128 .f32 :=
  addf (select (cmpf .ogt K zeros) K
      (mulf ones (Host.expm1 (select (cmpf .ogt K zeros) (zeros (F := F)) K)))) ones

/-- The reference's updated memory: M + φ(K)ᵀ (V − φ(K) M), batched over the first two axes. -/
def refM (K V : FVec F S4x16x8192x128 .f32) (M : FVec F S4x16x128x128 .f32) : FVec F S4x16x128x128 .f32 :=
  addf M (Host.dotGeneral dot_S4x16x8192x128_S4x16x8192x128_S4x16x128x128_2_2_3_3_01_01 none (refPhi K)
    (subf V (Host.dotGeneral dot_S4x16x8192x128_S4x16x128x128_S4x16x8192x128_3_2_2_3_01_01 none (refPhi K) M)))

/-- The reference's updated normaliser: z + the sum of φ(K) over the positions. -/
def refZ (K : FVec F S4x16x8192x128 .f32) (z : FVec F S4x16x128 .f32) : FVec F S4x16x128 .f32 :=
  addf z (Host.reduceAdd (refPhi K) (constant S_ .f32 0x00000000#32) reducesTo_S4x16x8192x128_S4x16x128_d2 h_S_)

/-- @main's 25 operations in order, the three module-local functions' operations at their call sites. -/
abbrev ops : List (HloOp τ sig (Elt F)) :=
  [ TRef.nullary main_call0.cst (constant S_ .f32 0x00000000#32),
    TRef.unary main_call0.cst main_call0.v0 (broadcastInDim S4x16x8192x128 ![] bcast_S_S4x16x8192x128),
    TRef.binary (.of main_arg0) main_call0.v0 main_call0.v1 (cmpf .ogt),
    TRef.nullary main_call0.cst_0 (constant S_ .f32 0x00000000#32),
    TRef.unary main_call0.cst_0 main_call0.v2 (broadcastInDim S4x16x8192x128 ![] bcast_S_S4x16x8192x128),
    TRef.binary (.of main_arg0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4x16x8192x128 ![] bcast_S_S4x16x8192x128),
    TRef.ternary main_call0.v3 main_call0.call0.v1 (.of main_arg0) main_call0.call0.v2 select,
    TRef.unary main_call0.call0.v2 main_call0.v5 Host.expm1,
    TRef.nullary main_call0.cst_2 (constant S_ .f32 0x3F800000#32),
    TRef.unary main_call0.cst_2 main_call0.v6 (broadcastInDim S4x16x8192x128 ![] bcast_S_S4x16x8192x128),
    TRef.binary main_call0.v6 main_call0.v5 main_call0.v7 mulf,
    TRef.ternary main_call0.v1 (.of main_arg0) main_call0.v7 main_call0.call1.v0 select,
    nullary main_cst (constant S_ .f32 0x3F800000#32),
    unary main_cst main_v1 (broadcastInDim S4x16x8192x128 ![] bcast_S_S4x16x8192x128 : (⟨S_, .f32⟩ : BufTy).Contents (Elt F) → (⟨S4x16x8192x128, .f32⟩ : BufTy).Contents (Elt F)),
    binary main_v0 main_v1 main_v2 (addf : (⟨S4x16x8192x128, .f32⟩ : BufTy).Contents (Elt F) → (⟨S4x16x8192x128, .f32⟩ : BufTy).Contents (Elt F) → (⟨S4x16x8192x128, .f32⟩ : BufTy).Contents (Elt F)),
    binary main_v2 main_arg2 main_v3 ((fun l r => Host.dotGeneral dot_S4x16x8192x128_S4x16x128x128_S4x16x8192x128_3_2_2_3_01_01 none l r) : (⟨S4x16x8192x128, .f32⟩ : BufTy).Contents (Elt F) → (⟨S4x16x128x128, .f32⟩ : BufTy).Contents (Elt F) → (⟨S4x16x8192x128, .f32⟩ : BufTy).Contents (Elt F)),
    binary main_arg1 main_v3 main_v4 (subf : (⟨S4x16x8192x128, .f32⟩ : BufTy).Contents (Elt F) → (⟨S4x16x8192x128, .f32⟩ : BufTy).Contents (Elt F) → (⟨S4x16x8192x128, .f32⟩ : BufTy).Contents (Elt F)),
    binary main_v2 main_v4 main_v5 ((fun l r => Host.dotGeneral dot_S4x16x8192x128_S4x16x8192x128_S4x16x128x128_2_2_3_3_01_01 none l r) : (⟨S4x16x8192x128, .f32⟩ : BufTy).Contents (Elt F) → (⟨S4x16x8192x128, .f32⟩ : BufTy).Contents (Elt F) → (⟨S4x16x128x128, .f32⟩ : BufTy).Contents (Elt F)),
    binary main_arg2 main_v5 main_v6 (addf : (⟨S4x16x128x128, .f32⟩ : BufTy).Contents (Elt F) → (⟨S4x16x128x128, .f32⟩ : BufTy).Contents (Elt F) → (⟨S4x16x128x128, .f32⟩ : BufTy).Contents (Elt F)),
    nullary main_cst_0 (constant S_ .f32 0x00000000#32),
    binary main_v2 main_cst_0 main_v7 ((fun x v => Host.reduceAdd x v reducesTo_S4x16x8192x128_S4x16x128_d2 h_S_) : (⟨S4x16x8192x128, .f32⟩ : BufTy).Contents (Elt F) → (⟨S_, .f32⟩ : BufTy).Contents (Elt F) → (⟨S4x16x128, .f32⟩ : BufTy).Contents (Elt F)),
    binary main_arg3 main_v7 main_v8 (addf : (⟨S4x16x128, .f32⟩ : BufTy).Contents (Elt F) → (⟨S4x16x128, .f32⟩ : BufTy).Contents (Elt F) → (⟨S4x16x128, .f32⟩ : BufTy).Contents (Elt F)) ]

set_option maxRecDepth 2048 in
/-- @main is that straight line: the three functions unfolded at their calls, the sequencing reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., nullary_bufs_sub .., unary_bufs_sub .., binary_bufs_sub ..,
    binary_bufs_sub .., binary_bufs_sub .., binary_bufs_sub .., binary_bufs_sub .., nullary_bufs_sub .., binary_bufs_sub ..,
    binary_bufs_sub ..⟩

/-- Every buffer after the line, as the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The memory result after the line is the composed term of the arguments: the fold unrolled, each result read at its
    own buffer, the typed references' transports the identity at these literal references. -/
theorem v6_eq (V : Valuation τ sig (Elt F)) :
    after ops V (main_v6 : DevRef τ sig)
      = refM (F := F) (V (main_arg0 : DevRef τ sig)) (V (main_arg1 : DevRef τ sig)) (V (main_arg2 : DevRef τ sig)) := by
  after_results
  unfold refM refPhi zeros ones
  rfl

/-- The normaliser result likewise. -/
theorem v8_eq (V : Valuation τ sig (Elt F)) :
    after ops V (main_v8 : DevRef τ sig)
      = refZ (F := F) (V (main_arg0 : DevRef τ sig)) (V (main_arg3 : DevRef τ sig)) := by
  after_results
  unfold refZ refPhi zeros ones
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

/-- On every device, for any float values, from any memory with zero counters: every weakly fair execution of @main
    terminates with the two results at the composed terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refM (F := F) (m ((c.tc : Thread nD τ).loc main_arg0)) (m ((c.tc : Thread nD τ).loc main_arg1)) (m ((c.tc : Thread nD τ).loc main_arg2))
      ∧ r.2.mem ((c.tc : Thread nD τ).loc main_v8)
          = refZ (F := F) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (v6_eq _), (h c main_v8).trans (v8_eq _),
      (h c main_arg0).trans (arg0_eq _), (h c main_arg1).trans (arg1_eq _),
      (h c main_arg2).trans (arg2_eq _), (h c main_arg3).trans (arg3_eq _)⟩)
    (run_after m ρ)

end Cert.ReferenceIdeal.HandRun

end
-- ==== Proof.RefRun.lean ====
/-
  The reference program's run and its results over the extended reals.

  The run of the straight line gives the two results as the composed terms refM and refZ of the operations. Read at an
  index over the extended reals, a batched product is the sum of the operands' products over the one contracted axis
  (the key width for φ(K) M, the positions for φ(K)ᵀ (V − φ(K) M)), the reduction over the positions is the sum over
  them started from zero, and the feature map as the reference spells it is φ pointwise. So the two terms are the
  specification's updated memory and normaliser, index by index; no finiteness is used.
-/
import proofs.«168873_j23244363006471_1_alg».proof.Proof.Spec
import proofs.«168873_j23244363006471_1_alg».proof.Proof.Gen.ReferenceIdeal
import proofs.«168873_j23244363006471_1_alg».proof.Proof.RefOps
import Idealize.ShloMosaic.PureOps.Ideal.Laws
import Idealize.ShloMosaic.Lib.ValueIdx
import Idealize.ShloMosaic.Lib.StableHlo.Run

noncomputable section

namespace Cert.ReferenceIdeal.HandRun

open Idealize.ShloMosaic Idealize.ShloMosaic.TcCoe Idealize.SL.Sem Idealize.ShloMosaic.ValueIdx
open Cert.ReferenceIdeal Cert.ReferenceIdeal.Gen Cert.DeltaSpec
open scoped BigOperators

/-! ## The two products' operand indices, axis by axis

For φ(K) M — operands [b, h, s, k'] and [b, h, k', v], result [b, h, s, v] — and for φ(K)ᵀ W — operands [b, h, s, k] and
[b, h, s, v], result [b, h, k, v]: each operand coordinate is a result coordinate or the contraction's one coordinate. -/

theorem d1_lhs_0 (j : S4x16x8192x128.Idx) (k : dot_S4x16x8192x128_S4x16x128x128_S4x16x8192x128_3_2_2_3_01_01.contr.Idx) :
    ((dot_S4x16x8192x128_S4x16x128x128_S4x16x8192x128_3_2_2_3_01_01.lhsIdx j k 0 : Fin _) : ℕ) = j 0 := rfl
theorem d1_lhs_1 (j : S4x16x8192x128.Idx) (k : dot_S4x16x8192x128_S4x16x128x128_S4x16x8192x128_3_2_2_3_01_01.contr.Idx) :
    ((dot_S4x16x8192x128_S4x16x128x128_S4x16x8192x128_3_2_2_3_01_01.lhsIdx j k 1 : Fin _) : ℕ) = j 1 := rfl
theorem d1_lhs_2 (j : S4x16x8192x128.Idx) (k : dot_S4x16x8192x128_S4x16x128x128_S4x16x8192x128_3_2_2_3_01_01.contr.Idx) :
    ((dot_S4x16x8192x128_S4x16x128x128_S4x16x8192x128_3_2_2_3_01_01.lhsIdx j k 2 : Fin _) : ℕ) = j 2 := rfl
theorem d1_lhs_3 (j : S4x16x8192x128.Idx) (k : dot_S4x16x8192x128_S4x16x128x128_S4x16x8192x128_3_2_2_3_01_01.contr.Idx) :
    ((dot_S4x16x8192x128_S4x16x128x128_S4x16x8192x128_3_2_2_3_01_01.lhsIdx j k 3 : Fin _) : ℕ) = k ⟨0, by decide⟩ := rfl
theorem d1_rhs_0 (j : S4x16x8192x128.Idx) (k : dot_S4x16x8192x128_S4x16x128x128_S4x16x8192x128_3_2_2_3_01_01.contr.Idx) :
    ((dot_S4x16x8192x128_S4x16x128x128_S4x16x8192x128_3_2_2_3_01_01.rhsIdx j k 0 : Fin _) : ℕ) = j 0 := rfl
theorem d1_rhs_1 (j : S4x16x8192x128.Idx) (k : dot_S4x16x8192x128_S4x16x128x128_S4x16x8192x128_3_2_2_3_01_01.contr.Idx) :
    ((dot_S4x16x8192x128_S4x16x128x128_S4x16x8192x128_3_2_2_3_01_01.rhsIdx j k 1 : Fin _) : ℕ) = j 1 := rfl
theorem d1_rhs_2 (j : S4x16x8192x128.Idx) (k : dot_S4x16x8192x128_S4x16x128x128_S4x16x8192x128_3_2_2_3_01_01.contr.Idx) :
    ((dot_S4x16x8192x128_S4x16x128x128_S4x16x8192x128_3_2_2_3_01_01.rhsIdx j k 2 : Fin _) : ℕ) = k ⟨0, by decide⟩ := rfl
theorem d1_rhs_3 (j : S4x16x8192x128.Idx) (k : dot_S4x16x8192x128_S4x16x128x128_S4x16x8192x128_3_2_2_3_01_01.contr.Idx) :
    ((dot_S4x16x8192x128_S4x16x128x128_S4x16x8192x128_3_2_2_3_01_01.rhsIdx j k 3 : Fin _) : ℕ) = j 3 := rfl
theorem d2_lhs_0 (j : S4x16x128x128.Idx) (k : dot_S4x16x8192x128_S4x16x8192x128_S4x16x128x128_2_2_3_3_01_01.contr.Idx) :
    ((dot_S4x16x8192x128_S4x16x8192x128_S4x16x128x128_2_2_3_3_01_01.lhsIdx j k 0 : Fin _) : ℕ) = j 0 := rfl
theorem d2_lhs_1 (j : S4x16x128x128.Idx) (k : dot_S4x16x8192x128_S4x16x8192x128_S4x16x128x128_2_2_3_3_01_01.contr.Idx) :
    ((dot_S4x16x8192x128_S4x16x8192x128_S4x16x128x128_2_2_3_3_01_01.lhsIdx j k 1 : Fin _) : ℕ) = j 1 := rfl
theorem d2_lhs_2 (j : S4x16x128x128.Idx) (k : dot_S4x16x8192x128_S4x16x8192x128_S4x16x128x128_2_2_3_3_01_01.contr.Idx) :
    ((dot_S4x16x8192x128_S4x16x8192x128_S4x16x128x128_2_2_3_3_01_01.lhsIdx j k 2 : Fin _) : ℕ) = k ⟨0, by decide⟩ := rfl
theorem d2_lhs_3 (j : S4x16x128x128.Idx) (k : dot_S4x16x8192x128_S4x16x8192x128_S4x16x128x128_2_2_3_3_01_01.contr.Idx) :
    ((dot_S4x16x8192x128_S4x16x8192x128_S4x16x128x128_2_2_3_3_01_01.lhsIdx j k 3 : Fin _) : ℕ) = j 2 := rfl
theorem d2_rhs_0 (j : S4x16x128x128.Idx) (k : dot_S4x16x8192x128_S4x16x8192x128_S4x16x128x128_2_2_3_3_01_01.contr.Idx) :
    ((dot_S4x16x8192x128_S4x16x8192x128_S4x16x128x128_2_2_3_3_01_01.rhsIdx j k 0 : Fin _) : ℕ) = j 0 := rfl
theorem d2_rhs_1 (j : S4x16x128x128.Idx) (k : dot_S4x16x8192x128_S4x16x8192x128_S4x16x128x128_2_2_3_3_01_01.contr.Idx) :
    ((dot_S4x16x8192x128_S4x16x8192x128_S4x16x128x128_2_2_3_3_01_01.rhsIdx j k 1 : Fin _) : ℕ) = j 1 := rfl
theorem d2_rhs_2 (j : S4x16x128x128.Idx) (k : dot_S4x16x8192x128_S4x16x8192x128_S4x16x128x128_2_2_3_3_01_01.contr.Idx) :
    ((dot_S4x16x8192x128_S4x16x8192x128_S4x16x128x128_2_2_3_3_01_01.rhsIdx j k 2 : Fin _) : ℕ) = k ⟨0, by decide⟩ := rfl
theorem d2_rhs_3 (j : S4x16x128x128.Idx) (k : dot_S4x16x8192x128_S4x16x8192x128_S4x16x128x128_2_2_3_3_01_01.contr.Idx) :
    ((dot_S4x16x8192x128_S4x16x8192x128_S4x16x128x128_2_2_3_3_01_01.rhsIdx j k 3 : Fin _) : ℕ) = j 3 := rfl

/-- Two rank-4 indices with the same four coordinates are equal. -/
private theorem ext4 {n : Fin 4 → ℕ} {x y : (a : Fin 4) → Fin (n a)} (h0 : (x 0 : ℕ) = y 0) (h1 : (x 1 : ℕ) = y 1)
    (h2 : (x 2 : ℕ) = y 2) (h3 : (x 3 : ℕ) = y 3) : x = y :=
  funext fun a => Fin.ext <| match a with | ⟨0, _⟩ => h0 | ⟨1, _⟩ => h1 | ⟨2, _⟩ => h2 | ⟨3, _⟩ => h3

/-! ## The operations read at an index -/

/-- φ(K) M at [b, h, s, v]: the sum over the key width. -/
theorem dot1_apply (A : FVec Ideal S4x16x8192x128 .f32) (B : FVec Ideal S4x16x128x128 .f32)
    (b : Fin 4) (h : Fin 16) (s : Fin 8192) (v : Fin 128) :
    Host.dotGeneral dot_S4x16x8192x128_S4x16x128x128_S4x16x8192x128_3_2_2_3_01_01 none A B (ix4 b h s v)
      = ∑ k' : Fin 128, A (ix4 b h s k') * B (ix4 b h k' v) := by
  refine (Ideal.dotGeneral_apply dot_S4x16x8192x128_S4x16x128x128_S4x16x8192x128_3_2_2_3_01_01 none .single A B (ix4 b h s v)).trans ?_
  rw [← Equiv.sum_comp (contrEquiv1 dot_S4x16x8192x128_S4x16x128x128_S4x16x8192x128_3_2_2_3_01_01 128 rfl rfl).symm]
  refine Finset.sum_congr rfl fun k' _ => ?_
  exact congrArg₂ (· * ·)
    (congrArg A (ext4 (d1_lhs_0 _ _) (d1_lhs_1 _ _) (d1_lhs_2 _ _)
      ((d1_lhs_3 _ _).trans (contrEquiv1_symm_val dot_S4x16x8192x128_S4x16x128x128_S4x16x8192x128_3_2_2_3_01_01 128 rfl rfl k'))))
    (congrArg B (ext4 (d1_rhs_0 _ _) (d1_rhs_1 _ _)
      ((d1_rhs_2 _ _).trans (contrEquiv1_symm_val dot_S4x16x8192x128_S4x16x128x128_S4x16x8192x128_3_2_2_3_01_01 128 rfl rfl k')) (d1_rhs_3 _ _)))

/-- φ(K)ᵀ W at [b, h, k, v]: the sum over the positions. -/
theorem dot2_apply (A B : FVec Ideal S4x16x8192x128 .f32)
    (b : Fin 4) (h : Fin 16) (k v : Fin 128) :
    Host.dotGeneral dot_S4x16x8192x128_S4x16x8192x128_S4x16x128x128_2_2_3_3_01_01 none A B (ix4 b h k v)
      = ∑ s : Fin 8192, A (ix4 b h s k) * B (ix4 b h s v) := by
  refine (Ideal.dotGeneral_apply dot_S4x16x8192x128_S4x16x8192x128_S4x16x128x128_2_2_3_3_01_01 none .single A B (ix4 b h k v)).trans ?_
  rw [← Equiv.sum_comp (contrEquiv1 dot_S4x16x8192x128_S4x16x8192x128_S4x16x128x128_2_2_3_3_01_01 8192 rfl rfl).symm]
  refine Finset.sum_congr rfl fun s _ => ?_
  exact congrArg₂ (· * ·)
    (congrArg A (ext4 (d2_lhs_0 _ _) (d2_lhs_1 _ _)
      ((d2_lhs_2 _ _).trans (contrEquiv1_symm_val dot_S4x16x8192x128_S4x16x8192x128_S4x16x128x128_2_2_3_3_01_01 8192 rfl rfl s)) (d2_lhs_3 _ _)))
    (congrArg B (ext4 (d2_rhs_0 _ _) (d2_rhs_1 _ _)
      ((d2_rhs_2 _ _).trans (contrEquiv1_symm_val dot_S4x16x8192x128_S4x16x8192x128_S4x16x128x128_2_2_3_3_01_01 8192 rfl rfl s)) (d2_rhs_3 _ _)))

/-- The reduction over the positions from the zero constant, at [b, h, k]: the sum over the positions. -/
theorem reduce_apply (A : FVec Ideal S4x16x8192x128 .f32) (b : Fin 4) (h : Fin 16) (k : Fin 128) :
    Host.reduceAdd (F := Ideal) A (constant (F := Ideal) S_ .f32 0x00000000#32) reducesTo_S4x16x8192x128_S4x16x128_d2 h_S_ (ix3 b h k)
      = ∑ s : Fin 8192, A (ix4 b h s k) := by
  have hr : S4x16x8192x128.Reduces [2] S4x16x128 := by decide
  refine (Ideal.hostReduceAdd_single reducesTo_S4x16x8192x128_S4x16x128_d2 hr A (Ideal.ofBits .f32 0x00000000#32) (ix3 b h k)).trans ?_
  rw [Ideal.ofBits_zero_f32, zero_add]
  exact Finset.sum_congr rfl fun s _ => congrArg A (ext4 rfl rfl rfl rfl)

/-- The reference's elu(K) + 1 at an index is φ of the key there: the broadcast constants are 0 and 1. -/
theorem refPhi_apply (K : FVec Ideal S4x16x8192x128 .f32) (i : S4x16x8192x128.Idx) :
    refPhi (F := Ideal) K i = phi (K i) := by
  have h0 : Ideal.ofBits .f32 0x00000000#32 = 0 := Ideal.ofBits_zero_f32
  have h1 : Ideal.ofBits .f32 0x3F800000#32 = 1 := IdealRules.sign_bit.ideal_onePat .f32
  show Scalar.select (Ideal.cmp .ogt (K i) (Ideal.ofBits .f32 0x00000000#32)) (K i)
      (Ideal.ofBits .f32 0x3F800000#32 * (Ideal.exp (Scalar.select (Ideal.cmp .ogt (K i) (Ideal.ofBits .f32 0x00000000#32))
        (Ideal.ofBits .f32 0x00000000#32) (K i)) - 1)) + Ideal.ofBits .f32 0x3F800000#32 = phi (K i)
  rw [h0, h1]
  exact phi_elu (K i)

/-! ## The two results are the specification's -/

theorem refM_eq (K V : FVec Ideal S4x16x8192x128 .f32) (M : FVec Ideal S4x16x128x128 .f32) :
    refM (F := Ideal) K V M = newM K V M := by
  funext i
  obtain ⟨b, h, k, v, rfl⟩ : ∃ (b : Fin 4) (h : Fin 16) (k v : Fin 128), i = ix4 b h k v := ⟨i 0, i 1, i 2, i 3, eq_ix4 i⟩
  rw [newM_ix]
  show M (ix4 b h k v) + Host.dotGeneral dot_S4x16x8192x128_S4x16x8192x128_S4x16x128x128_2_2_3_3_01_01 none (refPhi (F := Ideal) K)
      (subf V (Host.dotGeneral dot_S4x16x8192x128_S4x16x128x128_S4x16x8192x128_3_2_2_3_01_01 none (refPhi (F := Ideal) K) M)) (ix4 b h k v) = _
  rw [dot2_apply]
  refine congrArg (M (ix4 b h k v) + ·) (Finset.sum_congr rfl fun s _ => ?_)
  show refPhi (F := Ideal) K (ix4 b h s k) * (V (ix4 b h s v) - Host.dotGeneral dot_S4x16x8192x128_S4x16x128x128_S4x16x8192x128_3_2_2_3_01_01 none (refPhi (F := Ideal) K) M (ix4 b h s v))
    = feat K b h s k * (V (ix4 b h s v) - vexist K M b h s v)
  rw [dot1_apply, refPhi_apply]
  refine congrArg (fun t => phi (K (ix4 b h s k)) * (V (ix4 b h s v) - t)) (Finset.sum_congr rfl fun k' _ => ?_)
  rw [refPhi_apply]
  rfl

theorem refZ_eq (K : FVec Ideal S4x16x8192x128 .f32) (z : FVec Ideal S4x16x128 .f32) :
    refZ (F := Ideal) K z = newZ K z := by
  funext i
  obtain ⟨b, h, k, rfl⟩ : ∃ (b : Fin 4) (h : Fin 16) (k : Fin 128), i = ix3 b h k := ⟨i 0, i 1, i 2, eq_ix3 i⟩
  rw [newZ_ix]
  show z (ix3 b h k) + Host.reduceAdd (F := Ideal) (refPhi (F := Ideal) K) (constant (F := Ideal) S_ .f32 0x00000000#32)
      reducesTo_S4x16x8192x128_S4x16x128_d2 h_S_ (ix3 b h k) = _
  rw [reduce_apply]
  refine congrArg (z (ix3 b h k) + ·) (Finset.sum_congr rfl fun s _ => ?_)
  exact refPhi_apply K _

/-! ## The run -/

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
          = newM (m ((c.tc : Thread nD τ).loc main_arg0)) (m ((c.tc : Thread nD τ).loc main_arg1)) (m ((c.tc : Thread nD τ).loc main_arg2))
      ∧ r.2.mem ((c.tc : Thread nD τ).loc main_v8)
          = newZ (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r hr c => ?_) (run (F := Ideal) m ρ)
  obtain ⟨h6, h8, h0, h1, h2, h3⟩ := hr c
  exact ⟨h6.trans (refM_eq _ _ _), h8.trans (refZ_eq _ _), h0, h1, h2, h3⟩

end Cert.ReferenceIdeal.HandRun

end
-- ==== Proof.lean ====
/-
  The delta-rule memory update: a Pallas kernel against its einsum reference, over the extended reals.

  For every (batch, head) both programs compute
      M' = M + Σ_s φ(K[s,·])ᵀ (V[s,·] − φ(K[s,·]) M)      and      z' = z + Σ_s φ(K[s,·]),      φ = elu + 1,
  over S = 8192 positions. The kernel spells φ(x) as "x + 1 where x > 0, else e^x" and walks the positions in two tiles
  of 4096, accumulating both sums in scratch from a zero reset and adding M (resp. z) after the second tile; its
  matrix products are taken on values narrowed to sixteen bits, which over the extended reals is the identity. The
  reference spells elu(x) as "x where x > 0, else 1 · (e^y − 1)" with y = 0 where x > 0 and x elsewhere, and sums over
  all positions at once with batched contractions.

  Both programs are shown to end at ONE pair of arrays, the specification's newM and newZ of the four arguments
  (Proof/Spec.lean). What joins the two sides: the two spellings of φ agree at every extended real — above zero both are
  x + 1, at or below zero (e^x − 1) + 1 = e^x, also at −∞ where e^x = 0 —, and a sum over 8192 positions is the sum
  of its two halves, addition on the extended reals being commutative and associative. No distributive law and no
  cancellation is used, so the finiteness of the inputs is never needed.

  The three frames: the two kernel programs' from their generated frame certificates, the reference's from its run.
  The idealization rewrote nothing, so its preservation claim is empty.
-/
import proofs.«168873_j23244363006471_1_alg».proof.Defs
import proofs.«168873_j23244363006471_1_alg».proof.Proof.Gen.Kernel
import proofs.«168873_j23244363006471_1_alg».proof.Proof.Gen.Kernel.Frame
import proofs.«168873_j23244363006471_1_alg».proof.Proof.Gen.KernelIdeal
import proofs.«168873_j23244363006471_1_alg».proof.Proof.Gen.KernelIdeal.Frame
import proofs.«168873_j23244363006471_1_alg».proof.Proof.Gen.ReferenceIdeal
import proofs.«168873_j23244363006471_1_alg».proof.Proof.Gen.Pre_finite_inputs
import proofs.«168873_j23244363006471_1_alg».proof.Proof.KRun
import proofs.«168873_j23244363006471_1_alg».proof.Proof.RefRun
import Idealize.ShloMosaic.Adequacy
import Idealize.ShloMosaic.Init

noncomputable section

namespace Cert.Proof

open Idealize.ShloMosaic Idealize.SL.Sem Cert.DeltaSpec

/-- The word-level kernel runs and keeps its arguments: the generated frame certificate. -/
theorem frame_kernel : Cert.frame_Kernel (hKernel := Cert.Kernel.Gen.facts) (hPre_finite_inputs := Cert.Pre_finite_inputs.Gen.facts) :=
  fun m ρ _ => Cert.Kernel.Gen.frame m ρ

/-- The idealized kernel likewise. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.HandRun.run_spec m ρ)

/-- From memories that agree on the four arguments, both idealized programs end with the specification's updated
    memory and updated normaliser of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.HandValue.run_spec m ρ, ?_⟩
  refine (θ_run Cert.ReferenceIdeal.defs _ _).mono (fun _ h c => ?_) (Cert.ReferenceIdeal.HandRun.run_spec m' ρ')
  obtain ⟨h1, h2, h3⟩ := h c
  obtain ⟨a0, a1, a2, a3⟩ := hagree c
  refine ⟨h1.trans ?_, h2.trans ?_, h3⟩
  · rw [a0, a1, a2]
  · rw [a0, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
